-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S192x128 .f32) (main_arg8 : FVec F S128 .f32) (main_arg9 : FVec F S256x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S192x128 .f32 := Host.absf main_arg7
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S192x128 .f32) (main_arg8 : FVec F S128 .f32) (main_arg9 : FVec F S256x128 .f32) (main_arg10 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S5000x192 : Shape := ⟨2, ![5000, 192]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S5000x256 : Shape := ⟨2, ![5000, 256]⟩

abbrev nBuf : Space → Nat
  | .hbm => 74
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S192x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S1x128, .f32⟩
  | .hbm, ⟨73, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S192x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S256x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  concatenates_S5000x128_S5000x64_S5000x192_d1 : Shape.Concatenates [S5000x128, S5000x64] S5000x192 1
  inb_S192x128_S192x128_0_0 : ∀ a, (![0, 0] : Fin 2 → Nat) a + S192x128.size a ≤ S192x128.size a
  h_S192x128 : 0 < S192x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x192_S192x128_S5000x128_1_0_0_1_n_n_wf : DotDims.WF S5000x192 S192x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x128.size a ≤ S192x128.size a
  hwx0_5 : ∀ i : grid0.Coords, EltTy.bits .f32 = 32 ∨ (Rect.block (s := S192x128) S192x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S192x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S100000x128 : Shape := ⟨2, ![100000, 128]⟩
abbrev S1x128 : Shape := ⟨2, ![1, 128]⟩
abbrev S_ : Shape := ⟨0, ![]⟩
abbrev S100000x192 : Shape := ⟨2, ![100000, 192]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S100000x256 : Shape := ⟨2, ![100000, 256]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S192x128, .f32⟩
  | 8 => ⟨S128, .f32⟩
  | 9 => ⟨S256x128, .f32⟩
  | 10 => ⟨S128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .i1⟩
  | 18 => ⟨S_, .f32⟩
  | 19 => ⟨S100000x128, .f32⟩
  | 20 => ⟨S100000x128, .i1⟩
  | 21 => ⟨S_, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .i1⟩
  | 37 => ⟨S_, .f32⟩
  | 38 => ⟨S100000x128, .f32⟩
  | 39 => ⟨S100000x128, .i1⟩
  | 40 => ⟨S_, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S100000x192, .f32⟩
  | 50 => ⟨S100000x128, .f32⟩
  | 51 => ⟨S100000, .i32⟩
  | 52 => ⟨S1x1600000, .i32⟩
  | 53 => ⟨S1600000, .i32⟩
  | 54 => ⟨S1700000, .i32⟩
  | 55 => ⟨S1x1600000, .i32⟩
  | 56 => ⟨S1600000, .i32⟩
  | 57 => ⟨S1700000, .i32⟩
  | 58 => ⟨S_, .f32⟩
  | 59 => ⟨S1700000, .f32⟩
  | 60 => ⟨S_, .f32⟩
  | 61 => ⟨S100000, .f32⟩
  | 62 => ⟨S1700000x1, .i32⟩
  | 63 => ⟨S100000, .f32⟩
  | 64 => ⟨S_, .f32⟩
  | 65 => ⟨S100000, .f32⟩
  | 66 => ⟨S100000, .i1⟩
  | 67 => ⟨S100000, .f32⟩
  | 68 => ⟨S_, .f32⟩
  | 69 => ⟨S_, .f32⟩
  | 70 => ⟨S100000, .f32⟩
  | 71 => ⟨S100000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S100000x256, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .i1⟩
  | 118 => ⟨S_, .f32⟩
  | 119 => ⟨S100000x128, .f32⟩
  | 120 => ⟨S100000x128, .i1⟩
  | 121 => ⟨S_, .f32⟩
  | 122 => ⟨S_, .f32⟩
  | 123 => ⟨S100000x128, .f32⟩
  | 124 => ⟨S100000x128, .f32⟩
  | 125 => ⟨S100000x128, .f32⟩
  | 126 => ⟨S_, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_cst_0 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_2 : Ref sig .tc := ⟨.hbm, 68, rfl⟩
abbrev main_call2_v0 : Ref sig .tc := ⟨.hbm, 69, rfl⟩
abbrev main_call2_v1 : Ref sig .tc := ⟨.hbm, 70, rfl⟩
abbrev main_v26 : Ref sig .tc := ⟨.hbm, 71, rfl⟩
abbrev main_c : Ref sig .tc := ⟨.hbm, 72, rfl⟩
abbrev main_v27 : Ref sig .tc := ⟨.hbm, 73, rfl⟩
abbrev main_v28 : Ref sig .tc := ⟨.hbm, 74, rfl⟩
abbrev main_c_3 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_c_4 : Ref sig .tc := ⟨.hbm, 81, rfl⟩
abbrev main_v34 : Ref sig .tc := ⟨.hbm, 82, rfl⟩
abbrev main_v35 : Ref sig .tc := ⟨.hbm, 83, rfl⟩
abbrev main_c_5 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_6 : Ref sig .tc := ⟨.hbm, 91, rfl⟩
abbrev main_v42 : Ref sig .tc := ⟨.hbm, 92, rfl⟩
abbrev main_v43 : Ref sig .tc := ⟨.hbm, 93, rfl⟩
abbrev main_c_7 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_8 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_call3_cst_1 : Ref sig .tc := ⟨.hbm, 121, rfl⟩
abbrev main_call3_call0_v0 : Ref sig .tc := ⟨.hbm, 122, rfl⟩
abbrev main_call3_call0_v1 : Ref sig .tc := ⟨.hbm, 123, rfl⟩
abbrev main_call3_v4 : Ref sig .tc := ⟨.hbm, 124, rfl⟩
abbrev main_call3_v5 : Ref sig .tc := ⟨.hbm, 125, rfl⟩
abbrev main_call3_cst_2 : Ref sig .tc := ⟨.hbm, 126, rfl⟩
abbrev main_call3_v6 : Ref sig .tc := ⟨.hbm, 127, rfl⟩
abbrev main_call3_v7 : Ref sig .tc := ⟨.hbm, 128, rfl⟩
abbrev main_v63 : Ref sig .tc := ⟨.hbm, 129, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x64_S100000x192_d1 : Shape.Concatenates [S100000x128, S100000x64] S100000x192 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  concatenates_S100000x128_S100000x128_S100000x256_d1 : Shape.Concatenates [S100000x128, S100000x128] S100000x256 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  dot_S100000x192_S192x128_S100000x128_1_0_0_1_n_n_wf : DotDims.WF S100000x192 S192x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KStages.lean ====
/-
  The host stretch between the kernel program's two pallas_calls, as ONE function of the first call's second result
  and the edge list: the graph aggregation (the same operations, in the same order, as the reference's).
-/
import proofs.«118589_j71545565216996_1_alg».proof.KernelIdeal
import proofs.«118589_j71545565216996_1_alg».proof.Proof.Gen.KernelIdeal

noncomputable section

namespace Cert.KStages

open Idealize.ShloMosaic Cert.KernelIdeal Cert.KernelIdeal.Facts₀

variable {F : FTy → Type} [FloatOps F]

/-- The graph aggregation both programs run on the host, as ONE function of the transformed rows `xl` and the edge
    list: append a self loop `i → i` per node to the sources (row 0) and destinations (row 1); the degree of a node is
    the number of edges arriving at it (a scatter-add of ones); `dinv` is `deg^(-1/2)` where the degree is positive
    and `0` elsewhere; each edge carries `xl[src] · dinv[src] · dinv[dst]` (a negative index wraps by the node count
    first, as jnp indexing does); the result adds every edge's row into its destination's row. -/
def agg (xl : FVec F S100000x128 .f32) (edges : IVec S2x1600000 32) : FVec F S100000x128 .f32 :=
  have loop : IVec S100000 32 := iotaInDim S100000 32 0
  have src : IVec S1700000 32 := concatenate S1700000 0
    [⟨S1600000, shapeCast S1600000 (extractStridedSlice S1x1600000 ![0, 0] edges slices_S2x1600000_S1x1600000_0_0) shapeCasts_S1x1600000_S1600000⟩,
     ⟨S100000, loop⟩] concatenates_S1600000_S100000_S1700000_d0
  have dst : IVec S1700000 32 := concatenate S1700000 0
    [⟨S1600000, shapeCast S1600000 (extractStridedSlice S1x1600000 ![1, 0] edges slices_S2x1600000_S1x1600000_1_0) shapeCasts_S1x1600000_S1600000⟩,
     ⟨S100000, loop⟩] concatenates_S1600000_S100000_S1700000_d0
  have deg : FVec F S100000 .f32 := Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))
  have dinv : FVec F S100000 .f32 := select
    (cmpf .ogt deg (broadcastInDim S100000 ![] bcast_S_S100000 (constant S_ .f32 0x00000000#32)))
    (Host.rsqrt deg)
    (broadcastInDim S100000 ![] bcast_S_S100000 (constant S_ .f32 0x00000000#32))
  have wrap : IVec S1700000 32 → IVec S1700000x1 32 := fun v =>
    broadcastInDim S1700000x1 ![0] bcast_S1700000_S1700000x1_0
      (select (cmpi .slt v (broadcastInDim S1700000 ![] bcast_S_S1700000 (constantI S_ 32 0#32)))
        (addi v (broadcastInDim S1700000 ![] bcast_S_S1700000 (constantI S_ 32 100000#32))) v)
  have norm : FVec F S1700000 .f32 := mulf
    (Host.gather gather_S100000_S1700000x1_S1700000_n_0_n_n_0_1_1 dinv (wrap src))
    (Host.gather gather_S100000_S1700000x1_S1700000_n_0_n_n_0_1_1 dinv (wrap dst))
  have msg : FVec F S1700000x128 .f32 := mulf
    (Host.gather gather_S100000x128_S1700000x1_S1700000x128_1_0_n_n_0_1_1128 xl (wrap src))
    (broadcastInDim S1700000x128 ![0, 1] bcast_S1700000x1_S1700000x128_0_1
      (broadcastInDim S1700000x1 ![0] bcast_S1700000_S1700000x1_0 norm))
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    msg

end Cert.KStages

end
-- ==== Proof.KernelPeel.lean ====
/-
  The idealized kernel program's run with its result array NAMED, and the contents each pallas_call is entered at read
  back to the launch memory: the second call's result is what its pipeline leaves (`arrAt`) from entry contents that
  hold the first call's two results, the host aggregation of the second of them, and the reshaped biases.
-/
import proofs.«118589_j71545565216996_1_alg».proof.Proof.Gen.KernelIdeal.Frame
import proofs.«118589_j71545565216996_1_alg».proof.Proof.KStages
import proofs.«118589_j71545565216996_1_alg».proof.Proof.KernelRun
import Idealize.ShloMosaic.PureOps.Ideal

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- No operation of a literal host stretch writes the buffer: each operation writes one reference, another one. -/
macro "no_write" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer the two reshapes before the first call do not write holds, when that call is entered, what it was
    launched with. -/
theorem W1_launch (c : Dev nD) (b : Ref sig .tc)
    (h : ∀ op ∈ (hostOps0 : List (HloOp τ sig (Elt Ideal))), (Proc.devRef .tc b : DevRef τ sig) ∉ op.writes) :
    W1 m ρ c (Proc.devRef .tc b) = m ((c.tc : Thread nD τ).loc b) :=
  (StableHlo.after_of_forall_not_mem (b := Proc.devRef .tc b) _ _ h).trans rfl

/-- A buffer none of the three host stretches between the calls writes holds, when the second call is entered, what
    the first call left in it. -/
theorem W5_carry (c : Dev nD) (b : Ref sig .tc)
    (h1 : ∀ op ∈ (hostOps1 : List (HloOp τ sig (Elt Ideal))), (Proc.devRef .tc b : DevRef τ sig) ∉ op.writes)
    (h2 : ∀ op ∈ (hostOps1_1 : List (HloOp τ sig (Elt Ideal))), (Proc.devRef .tc b : DevRef τ sig) ∉ op.writes)
    (h3 : ∀ op ∈ (hostOps1_2 : List (HloOp τ sig (Elt Ideal))), (Proc.devRef .tc b : DevRef τ sig) ∉ op.writes) :
    W5 m ρ c (Proc.devRef .tc b) = W2 m ρ c (Proc.devRef .tc b) :=
  calc W5 m ρ c (Proc.devRef .tc b)
    _ = W4 m ρ c (Proc.devRef .tc b) := StableHlo.after_of_forall_not_mem (b := Proc.devRef .tc b) _ _ h3
    _ = W3 m ρ c (Proc.devRef .tc b) := StableHlo.after_of_forall_not_mem (b := Proc.devRef .tc b) _ _ h2
    _ = W2 m ρ c (Proc.devRef .tc b) := StableHlo.after_of_forall_not_mem (b := Proc.devRef .tc b) _ _ h1

/-- An argument that is no array of the first call and that no host operation before the second call writes holds,
    when the second call is entered, what it was launched with. -/
theorem W5_launch (c : Dev nD) (b : Ref sig .tc) (hb : ∀ w, Pipeline.arrRef spec0 w ≠ b)
    (h0 : ∀ op ∈ (hostOps0 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes)
    (h2 : ∀ op ∈ (hostOps1_1 : List (HloOp τ sig (Elt Ideal))), (Proc.devRef .tc b : DevRef τ sig) ∉ op.writes)
    (h3 : ∀ op ∈ (hostOps1_2 : List (HloOp τ sig (Elt Ideal))), (Proc.devRef .tc b : DevRef τ sig) ∉ op.writes) :
    W5 m ρ c (Proc.devRef .tc b) = m ((c.tc : Thread nD τ).loc b) :=
  (W5_carry m ρ c b h1 h2 h3).trans ((W2_of_ne m ρ c b hb).trans (W1_launch m ρ c b h0))

/-- Every weakly fair execution ends with the result array at what the second pipeline leaves, the arguments as launched. -/
theorem run_named : θ_run defs (onTc (τ := τ) (main (F := Ideal))) ⟨m, fun _ => 0, ρ⟩ (fun r => ∀ c : Dev nD,
      r.2.mem ((c.tc : Thread nD τ).loc main_v48) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (W6_arr m ρ c 5), (h c).2⟩) (run_result m ρ)

/-! ## The host aggregation between the calls -/

section Host

variable {F : FTy → Type} [FloatOps F]

-- the first stretch is eighteen operations, six of whose results the two later stretches read
set_option maxHeartbeats 1000000 in
attribute [local irreducible] Host.scatterAdd Host.gather Host.rsqrt concatenate in
/-- The three host stretches between the calls, read at the last scatter's result, from ANY contents `X` before them:
    the graph aggregation of what `X` holds at the first call's second result and at the edge list. Each stretch is
    peeled with the contents before it held as a variable, so that no earlier stretch is opened while a later one is
    read; what is left is the aggregation's own term, the big host operations compared by their arguments only. -/
theorem agg_fold (X : Valuation τ sig (Elt F)) :
    (StableHlo.after hostOps1_2 (StableHlo.after hostOps1_1 (StableHlo.after hostOps1 X))
      (Proc.devRef .tc main_v45) : FVec F S100000x128 .f32)
      = Cert.KStages.agg (X (Proc.devRef .tc main_v2_1) : FVec F S100000x128 .f32)
          (X (Proc.devRef .tc main_arg1) : IVec S2x1600000 32) := by
  -- the last stretch: the message rows, their normalisation and the scatter, over the contents `Z` before it
  generalize hZ : StableHlo.after hostOps1_1 (StableHlo.after hostOps1 X) = Z
  after_results_simp
  subst hZ
  -- the middle stretch: the select that zeroes `dinv` where the degree is not positive
  generalize hY : StableHlo.after hostOps1 X = Y
  after_results
  subst hY
  -- the first stretch: the edge rows with the self loops appended, the degree, its comparison and inverse root
  after_results
  unfold Cert.KStages.agg
  rfl

end Host

/-! ## The second call's entry contents -/

theorem V5_nfeats (c : Dev nD) : V5 m ρ c main_v2_0 = (dat0 (V1 m ρ) c).arrAt 6 cfg0.N :=
  (W5_carry m ρ c main_v2_0 (by no_write hostOps1) (by no_write hostOps1_1) (by no_write hostOps1_2)).trans
    (W2_arr m ρ c 6)
theorem V5_agg (c : Dev nD) :
    (V5 m ρ c main_v45 : FVec Ideal S100000x128 .f32)
      = Cert.KStages.agg (F := Ideal) ((dat0 (V1 m ρ) c).arrAt 7 cfg0.N : FVec Ideal S100000x128 .f32)
          (m ((c.tc : Thread nD τ).loc main_arg1) : IVec S2x1600000 32) := by
  -- both operands as reads of the first call's exit contents: its second result is window 7's array, the edge list
  -- is no array of the call and no reshape before it writes it
  have h7 : W2 m ρ c (Proc.devRef .tc main_v2_1) = (dat0 (V1 m ρ) c).arrAt 7 cfg0.N := W2_arr m ρ c 7
  have he : W2 m ρ c (Proc.devRef .tc main_arg1) = m ((c.tc : Thread nD τ).loc main_arg1) :=
    (W2_of_ne m ρ c main_arg1 (by decide)).trans (W1_launch m ρ c main_arg1 (by no_write hostOps0))
  rw [← he, ← h7]
  exact agg_fold (W2 m ρ c)
theorem V5_bgc (c : Dev nD) :
    V5 m ρ c main_v46 = shapeCast S1x128 (m ((c.tc : Thread nD τ).loc main_arg8)) Facts₀.shapeCasts_S128_S1x128 := by
  -- the bias as launched, carried up to the last stretch, whose reshape reads it
  have e : W4 m ρ c (Proc.devRef .tc main_arg8) = m ((c.tc : Thread nD τ).loc main_arg8) :=
    calc W4 m ρ c (Proc.devRef .tc main_arg8)
      _ = W3 m ρ c (Proc.devRef .tc main_arg8) :=
          StableHlo.after_of_forall_not_mem (b := Proc.devRef .tc main_arg8) _ _ (by no_write hostOps1_1)
      _ = W2 m ρ c (Proc.devRef .tc main_arg8) :=
          StableHlo.after_of_forall_not_mem (b := Proc.devRef .tc main_arg8) _ _ (by no_write hostOps1)
      _ = W1 m ρ c (Proc.devRef .tc main_arg8) := W2_of_ne m ρ c main_arg8 (by decide)
      _ = m ((c.tc : Thread nD τ).loc main_arg8) := W1_launch m ρ c main_arg8 (by no_write hostOps0)
  rw [← e]
  show StableHlo.after hostOps1_2 (W4 m ρ c) (Proc.devRef .tc main_v46) = _
  generalize W4 m ρ c = X
  after_results
  rfl
theorem V5_Wc (c : Dev nD) : V5 m ρ c main_arg9 = m ((c.tc : Thread nD τ).loc main_arg9) :=
  W5_launch m ρ c main_arg9 (by decide) (by no_write hostOps0) (by no_write hostOps1) (by no_write hostOps1_1)
    (by no_write hostOps1_2)
theorem V5_bc (c : Dev nD) :
    V5 m ρ c main_v47 = shapeCast S1x128 (m ((c.tc : Thread nD τ).loc main_arg10)) Facts₀.shapeCasts_S128_S1x128 := by
  -- the bias as launched, carried up to the last stretch, whose reshape reads it
  have e : W4 m ρ c (Proc.devRef .tc main_arg10) = m ((c.tc : Thread nD τ).loc main_arg10) :=
    calc W4 m ρ c (Proc.devRef .tc main_arg10)
      _ = W3 m ρ c (Proc.devRef .tc main_arg10) :=
          StableHlo.after_of_forall_not_mem (b := Proc.devRef .tc main_arg10) _ _ (by no_write hostOps1_1)
      _ = W2 m ρ c (Proc.devRef .tc main_arg10) :=
          StableHlo.after_of_forall_not_mem (b := Proc.devRef .tc main_arg10) _ _ (by no_write hostOps1)
      _ = W1 m ρ c (Proc.devRef .tc main_arg10) := W2_of_ne m ρ c main_arg10 (by decide)
      _ = m ((c.tc : Thread nD τ).loc main_arg10) := W1_launch m ρ c main_arg10 (by no_write hostOps0)
  rw [← e]
  show StableHlo.after hostOps1_2 (W4 m ρ c) (Proc.devRef .tc main_v47) = _
  generalize W4 m ρ c = X
  after_results
  rfl

/-! ## The first call's entry contents -/

theorem V1_feats (c : Dev nD) : V1 m ρ c main_arg0 = m ((c.tc : Thread nD τ).loc main_arg0) :=
  W1_launch m ρ c main_arg0 (by no_write hostOps0)
theorem V1_W1 (c : Dev nD) : V1 m ρ c main_arg3 = m ((c.tc : Thread nD τ).loc main_arg3) :=
  W1_launch m ρ c main_arg3 (by no_write hostOps0)
theorem V1_b1 (c : Dev nD) :
    V1 m ρ c main_v0 = shapeCast S1x128 (m ((c.tc : Thread nD τ).loc main_arg4)) Facts₀.shapeCasts_S128_S1x128 := by
  show StableHlo.after hostOps0 _ (Proc.devRef .tc main_v0) = _
  after_results
  rfl
theorem V1_W2 (c : Dev nD) : V1 m ρ c main_arg5 = m ((c.tc : Thread nD τ).loc main_arg5) :=
  W1_launch m ρ c main_arg5 (by no_write hostOps0)
theorem V1_b2 (c : Dev nD) :
    V1 m ρ c main_v1 = shapeCast S1x128 (m ((c.tc : Thread nD τ).loc main_arg6)) Facts₀.shapeCasts_S128_S1x128 := by
  show StableHlo.after hostOps0 _ (Proc.devRef .tc main_v1) = _
  after_results
  rfl
theorem V1_Wgc (c : Dev nD) : V1 m ρ c main_arg7 = m ((c.tc : Thread nD τ).loc main_arg7) :=
  W1_launch m ρ c main_arg7 (by no_write hostOps0)

end Cert.KernelValue

end
-- ==== Proof.RefRun.lean ====
/-
  The reference's @main as the list of its host operations, the three activation calls and the `where` call laid out
  inline over their buffer records, and its run: every weakly fair execution terminates with every buffer at the
  operations' fold over the launch contents.
-/
import proofs.«118589_j71545565216996_1_alg».proof.Proof.Gen.ReferenceIdeal
import Idealize.ShloMosaic.Lib.StableHlo.Run

noncomputable section

namespace Cert.RefRun

open Idealize.ShloMosaic Idealize.ShloMosaic.TcCoe Idealize.SL.Sem Idealize.ShloMosaic.StableHlo
open Cert.ReferenceIdeal Cert.ReferenceIdeal.Gen

variable {F : FTy → Type} [FloatOps F]

/-- @main's host operations, in order. The activation x ↦ (x > 0 ? x : 1 · expm1 (x > 0 ? 0 : x)) is fifteen operations
    each time it is applied (two comparisons against a broadcast zero, the inner selection of three, expm1, the
    product with a broadcast one, the outer selection); the guarded reciprocal square root's selection is three. -/
abbrev ops : List (HloOp τ sig (Elt F)) :=
  [ -- first layer: x · W₀ + b₀
    binary main_arg0 main_arg3 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    -- the activation of the first layer
    TRef.nullary main_call0.cst (constant S_ .f32 0x00000000#32),
    TRef.unary main_call0.cst main_call0.v0 (broadcastInDim S100000x128 ![] bcast_S_S100000x128),
    TRef.binary (.of main_v3) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v3) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v3) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v3) main_call0.v7 main_call0.call1.v0 select,
    -- second layer: h · W₁ + b₁
    binary main_v4 main_arg5 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    -- the activation of the second layer
    TRef.nullary main_call1.cst (constant S_ .f32 0x00000000#32),
    TRef.unary main_call1.cst main_call1.v0 (broadcastInDim S100000x128 ![] bcast_S_S100000x128),
    TRef.binary (.of main_v8) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v8) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v8) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v8) main_call1.v7 main_call1.call1.v0 select,
    -- the convolution's linear map on [h, x]
    binary main_v9 main_arg0 main_v10 ((fun a b => concatenate S100000x192 1 [⟨S100000x128, a⟩, ⟨S100000x64, b⟩] concatenates_S100000x128_S100000x64_S100000x192_d1) : (⟨S100000x128, .f32⟩ : BufTy).Contents (Elt F) → (⟨S100000x64, .f32⟩ : BufTy).Contents (Elt F) → (⟨S100000x192, .f32⟩ : BufTy).Contents (Elt F)),
    binary main_v10 main_arg7 main_v11 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    -- sources and targets of the edges, each with the self loops appended
    nullary main_v12 (iotaInDim S100000 32 0),
    unary main_arg1 main_v13 ((extractStridedSlice S1x1600000 ![0, 0] · slices_S2x1600000_S1x1600000_0_0) : (⟨S2x1600000, .i32⟩ : BufTy).Contents (Elt F) → (⟨S1x1600000, .i32⟩ : BufTy).Contents (Elt F)),
    reshape main_v13 main_v14 rfl shapeCasts_S1x1600000_S1600000,
    binary main_v14 main_v12 main_v15 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v16 ((extractStridedSlice S1x1600000 ![1, 0] · slices_S2x1600000_S1x1600000_1_0) : (⟨S2x1600000, .i32⟩ : BufTy).Contents (Elt F) → (⟨S1x1600000, .i32⟩ : BufTy).Contents (Elt F)),
    reshape main_v16 main_v17 rfl shapeCasts_S1x1600000_S1600000,
    binary main_v17 main_v12 main_v18 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    -- in-degrees: ones scattered at the targets
    nullary main_cst (constant S_ .f32 0x3F800000#32),
    unary main_cst main_v19 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v20 (broadcastInDim S100000 ![] bcast_S_S100000 : (⟨S_, .f32⟩ : BufTy).Contents (Elt F) → (⟨S100000, .f32⟩ : BufTy).Contents (Elt F)),
    unary main_v18 main_v21 (broadcastInDim S1700000x1 ![0] bcast_S1700000_S1700000x1_0 : (⟨S1700000, .i32⟩ : BufTy).Contents (Elt F) → (⟨S1700000x1, .i32⟩ : BufTy).Contents (Elt F)),
    ternary main_v20 main_v21 main_v19 main_v22 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    -- deg > 0 ? rsqrt deg : 0
    nullary main_cst_1 (constant S_ .f32 0x00000000#32),
    unary main_cst_1 main_v23 (broadcastInDim S100000 ![] bcast_S_S100000 : (⟨S_, .f32⟩ : BufTy).Contents (Elt F) → (⟨S100000, .f32⟩ : BufTy).Contents (Elt F)),
    binary main_v22 main_v23 main_v24 (cmpf .ogt : (⟨S100000, .f32⟩ : BufTy).Contents (Elt F) → (⟨S100000, .f32⟩ : BufTy).Contents (Elt F) → (⟨S100000, .i1⟩ : BufTy).Contents (Elt F)),
    unary main_v22 main_v25 (Host.rsqrt : (⟨S100000, .f32⟩ : BufTy).Contents (Elt F) → (⟨S100000, .f32⟩ : BufTy).Contents (Elt F)),
    nullary main_cst_2 (constant S_ .f32 0x00000000#32),
    TRef.unary (.of main_cst_2) main_call2.v0 id,
    TRef.unary main_call2.v0 main_call2.v1 (broadcastInDim S100000 ![] bcast_S_S100000),
    TRef.ternary (.of main_v24) (.of main_v25) main_call2.v1 main_call2.v2 select,
    -- the scale at the sources (negative indices wrapped)
    nullary main_c (constantI S_ 32 0#32),
    unary main_c main_v27 (broadcastInDim S1700000 ![] bcast_S_S1700000 : (⟨S_, .i32⟩ : BufTy).Contents (Elt F) → (⟨S1700000, .i32⟩ : BufTy).Contents (Elt F)),
    binary main_v15 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v29 (broadcastInDim S1700000 ![] bcast_S_S1700000 : (⟨S_, .i32⟩ : BufTy).Contents (Elt F) → (⟨S1700000, .i32⟩ : BufTy).Contents (Elt F)),
    binary main_v15 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v15 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v26 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    -- the scale at the targets, and the edge weight: their product
    nullary main_c_4 (constantI S_ 32 0#32),
    unary main_c_4 main_v34 (broadcastInDim S1700000 ![] bcast_S_S1700000 : (⟨S_, .i32⟩ : BufTy).Contents (Elt F) → (⟨S1700000, .i32⟩ : BufTy).Contents (Elt F)),
    binary main_v18 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v36 (broadcastInDim S1700000 ![] bcast_S_S1700000 : (⟨S_, .i32⟩ : BufTy).Contents (Elt F) → (⟨S1700000, .i32⟩ : BufTy).Contents (Elt F)),
    binary main_v18 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v18 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v26 main_v39 main_v40 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v33 main_v40 main_v41 (mulf : (⟨S1700000, .f32⟩ : BufTy).Contents (Elt F) → (⟨S1700000, .f32⟩ : BufTy).Contents (Elt F) → (⟨S1700000, .f32⟩ : BufTy).Contents (Elt F)),
    -- the rows of the linear map at the sources, weighted
    nullary main_c_6 (constantI S_ 32 0#32),
    unary main_c_6 main_v42 (broadcastInDim S1700000 ![] bcast_S_S1700000 : (⟨S_, .i32⟩ : BufTy).Contents (Elt F) → (⟨S1700000, .i32⟩ : BufTy).Contents (Elt F)),
    binary main_v15 main_v42 main_v43 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v44 (broadcastInDim S1700000 ![] bcast_S_S1700000 : (⟨S_, .i32⟩ : BufTy).Contents (Elt F) → (⟨S1700000, .i32⟩ : BufTy).Contents (Elt F)),
    binary main_v15 main_v44 main_v45 (addi : (⟨S1700000, .i32⟩ : BufTy).Contents (Elt F) → (⟨S1700000, .i32⟩ : BufTy).Contents (Elt F) → (⟨S1700000, .i32⟩ : BufTy).Contents (Elt F)),
    ternary main_v43 main_v45 main_v15 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v46 main_v47 (broadcastInDim S1700000x1 ![0] bcast_S1700000_S1700000x1_0 : (⟨S1700000, .i32⟩ : BufTy).Contents (Elt F) → (⟨S1700000x1, .i32⟩ : BufTy).Contents (Elt F)),
    binary main_v11 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v41 main_v49 (broadcastInDim S1700000x1 ![0] bcast_S1700000_S1700000x1_0 : (⟨S1700000, .f32⟩ : BufTy).Contents (Elt F) → (⟨S1700000x1, .f32⟩ : BufTy).Contents (Elt F)),
    unary main_v49 main_v50 (broadcastInDim S1700000x128 ![0, 1] bcast_S1700000x1_S1700000x128_0_1 : (⟨S1700000x1, .f32⟩ : BufTy).Contents (Elt F) → (⟨S1700000x128, .f32⟩ : BufTy).Contents (Elt F)),
    binary main_v48 main_v50 main_v51 (mulf : (⟨S1700000x128, .f32⟩ : BufTy).Contents (Elt F) → (⟨S1700000x128, .f32⟩ : BufTy).Contents (Elt F) → (⟨S1700000x128, .f32⟩ : BufTy).Contents (Elt F)),
    -- summed at the targets, plus the bias
    nullary main_cst_8 (constant S_ .f32 0x00000000#32),
    unary main_cst_8 main_v52 (broadcastInDim S100000x128 ![] bcast_S_S100000x128 : (⟨S_, .f32⟩ : BufTy).Contents (Elt F) → (⟨S100000x128, .f32⟩ : BufTy).Contents (Elt F)),
    unary main_v18 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    -- the output layer on [h, aggregate]
    binary main_v9 main_v57 main_v58 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v58 main_arg9 main_v59 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    -- the activation of the output layer
    TRef.nullary main_call3.cst (constant S_ .f32 0x00000000#32),
    TRef.unary main_call3.cst main_call3.v0 (broadcastInDim S100000x128 ![] bcast_S_S100000x128),
    TRef.binary (.of main_v62) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v62) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v62) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v62) main_call3.v7 main_call3.call1.v0 select ]

-- the program is a chain of 119 steps; bringing it to right-nested form descends one level per step, well past the default depth
set_option maxRecDepth 4096 in
/-- Running the first window and then the second, with each activation and the guarded selection replaced by its body
    at the call's own buffers, performs exactly the listed operations one after another: after the nested sequencing is
    flattened to the right the program and the list's run are the same term. -/
theorem main_eq (c : Dev nD) : main (F := F) c = seq ops := by
  simp only [main, main_part0, main_part1, fn_elu.body, fn_where.body, fn_where_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., binary_bufs_sub ..,
    nullary_bufs_sub .., unary_bufs_sub .., reshape_bufs_sub .., binary_bufs_sub .., unary_bufs_sub .., reshape_bufs_sub ..,
    binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub ..,
    binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefStages.lean ====
/-
  The reference's computation as a composition of named stages, each a function of whole arrays at any float
  instance: the activation `elu` as jax spells it, the bias broadcast down the rows, the two-layer network
  `nfeats`, the linear transform `xlin` of `[nfeats | feats]`, the graph aggregation `agg`, and the combining
  layer `out`. `result` is their composition: what the reference's run leaves in its result buffer.
-/
import proofs.«118589_j71545565216996_1_alg».proof.ReferenceIdeal
import proofs.«118589_j71545565216996_1_alg».proof.Proof.Gen.ReferenceIdeal

noncomputable section

namespace Cert.RefStages

open Idealize.ShloMosaic Cert.ReferenceIdeal Cert.ReferenceIdeal.Facts₀

variable {F : FTy → Type} [FloatOps F]

/-- A scalar float word spread over a [100000, 128] array. -/
def splat (w : BitVec 32) : FVec F S100000x128 .f32 :=
  broadcastInDim S100000x128 ![] bcast_S_S100000x128 (constant S_ .f32 w)

/-- `jax.nn.elu`: where `x > 0` the entry itself, elsewhere `1 · expm1 (where (x > 0, 0, x))`. -/
def elu (x : FVec F S100000x128 .f32) : FVec F S100000x128 .f32 :=
  select (cmpf .ogt x (splat 0x00000000#32)) x
    (mulf (splat 0x3F800000#32)
      (Host.expm1 (select (cmpf .ogt x (splat 0x00000000#32)) (splat 0x00000000#32) x)))

/-- A bias vector repeated down the hundred thousand rows. -/
def bias (b : FVec F S128 .f32) : FVec F S100000x128 .f32 :=
  broadcastInDim S100000x128 ![0, 1] bcast_S1x128_S100000x128_0_1 (broadcastInDim S1x128 ![1] bcast_S128_S1x128_1 b)

/-- The two-layer network on the node features: `elu (elu (feats · W1 + b1) · W2 + b2)`. -/
def nfeats (feats : FVec F S100000x64 .f32) (W1 : FVec F S64x128 .f32) (b1 : FVec F S128 .f32)
    (W2 : FVec F S128x128 .f32) (b2 : FVec F S128 .f32) : FVec F S100000x128 .f32 :=
  elu (addf (Host.dotGeneral dot_S100000x128_S128x128_S100000x128_1_0_0_1_n_n none
    (elu (addf (Host.dotGeneral dot_S100000x64_S64x128_S100000x128_1_0_0_1_n_n none feats W1) (bias b1))) W2) (bias b2))

/-- The graph layer's linear transform of each node's `[nfeats | feats]` row. -/
def xlin (nf : FVec F S100000x128 .f32) (feats : FVec F S100000x64 .f32) (Wgc : FVec F S192x128 .f32) :
    FVec F S100000x128 .f32 :=
  Host.dotGeneral dot_S100000x192_S192x128_S100000x128_1_0_0_1_n_n none
    (concatenate S100000x192 1 [⟨S100000x128, nf⟩, ⟨S100000x64, feats⟩] concatenates_S100000x128_S100000x64_S100000x192_d1) Wgc

/-- The graph aggregation both programs run on the host, as ONE function of the transformed rows `xl` and the edge
    list: append a self loop `i → i` per node to the sources (row 0) and destinations (row 1); the degree of a node is
    the number of edges arriving at it (a scatter-add of ones); `dinv` is `deg^(-1/2)` where the degree is positive
    and `0` elsewhere; each edge carries `xl[src] · dinv[src] · dinv[dst]` (a negative index wraps by the node count
    first, as jnp indexing does); the result adds every edge's row into its destination's row. -/
def agg (xl : FVec F S100000x128 .f32) (edges : IVec S2x1600000 32) : FVec F S100000x128 .f32 :=
  have loop : IVec S100000 32 := iotaInDim S100000 32 0
  have src : IVec S1700000 32 := concatenate S1700000 0
    [⟨S1600000, shapeCast S1600000 (extractStridedSlice S1x1600000 ![0, 0] edges slices_S2x1600000_S1x1600000_0_0) shapeCasts_S1x1600000_S1600000⟩,
     ⟨S100000, loop⟩] concatenates_S1600000_S100000_S1700000_d0
  have dst : IVec S1700000 32 := concatenate S1700000 0
    [⟨S1600000, shapeCast S1600000 (extractStridedSlice S1x1600000 ![1, 0] edges slices_S2x1600000_S1x1600000_1_0) shapeCasts_S1x1600000_S1600000⟩,
     ⟨S100000, loop⟩] concatenates_S1600000_S100000_S1700000_d0
  have deg : FVec F S100000 .f32 := Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))
  have dinv : FVec F S100000 .f32 := select
    (cmpf .ogt deg (broadcastInDim S100000 ![] bcast_S_S100000 (constant S_ .f32 0x00000000#32)))
    (Host.rsqrt deg)
    (broadcastInDim S100000 ![] bcast_S_S100000 (constant S_ .f32 0x00000000#32))
  have wrap : IVec S1700000 32 → IVec S1700000x1 32 := fun v =>
    broadcastInDim S1700000x1 ![0] bcast_S1700000_S1700000x1_0
      (select (cmpi .slt v (broadcastInDim S1700000 ![] bcast_S_S1700000 (constantI S_ 32 0#32)))
        (addi v (broadcastInDim S1700000 ![] bcast_S_S1700000 (constantI S_ 32 100000#32))) v)
  have norm : FVec F S1700000 .f32 := mulf
    (Host.gather gather_S100000_S1700000x1_S1700000_n_0_n_n_0_1_1 dinv (wrap src))
    (Host.gather gather_S100000_S1700000x1_S1700000_n_0_n_n_0_1_1 dinv (wrap dst))
  have msg : FVec F S1700000x128 .f32 := mulf
    (Host.gather gather_S100000x128_S1700000x1_S1700000x128_1_0_n_n_0_1_1128 xl (wrap src))
    (broadcastInDim S1700000x128 ![0, 1] bcast_S1700000x1_S1700000x128_0_1
      (broadcastInDim S1700000x1 ![0] bcast_S1700000_S1700000x1_0 norm))
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    msg

/-- The combining layer: `elu ([nfeats | agg + bgc] · Wc + bc)`. -/
def out (nf ag : FVec F S100000x128 .f32) (bgc : FVec F S128 .f32) (Wc : FVec F S256x128 .f32) (bc : FVec F S128 .f32) :
    FVec F S100000x128 .f32 :=
  elu (addf (Host.dotGeneral dot_S100000x256_S256x128_S100000x128_1_0_0_1_n_n none
    (concatenate S100000x256 1 [⟨S100000x128, nf⟩, ⟨S100000x128, addf ag (bias bgc)⟩]
      concatenates_S100000x128_S100000x128_S100000x256_d1) Wc) (bias bc))

/-- The whole reference, from its argument arrays. -/
def result (feats : FVec F S100000x64 .f32) (edges : IVec S2x1600000 32) (W1 : FVec F S64x128 .f32) (b1 : FVec F S128 .f32)
    (W2 : FVec F S128x128 .f32) (b2 : FVec F S128 .f32) (Wgc : FVec F S192x128 .f32) (bgc : FVec F S128 .f32)
    (Wc : FVec F S256x128 .f32) (bc : FVec F S128 .f32) : FVec F S100000x128 .f32 :=
  out (nfeats feats W1 b1 W2 b2) (agg (xlin (nfeats feats W1 b1 W2 b2) feats Wgc) edges) bgc Wc bc

end Cert.RefStages

end
-- ==== Proof.RefValue.lean ====
/-
  The reference's run read back: every weakly fair execution ends with the result buffer at `RefStages.result` of the
  argument arrays as launched, the arguments unchanged.
-/
import proofs.«118589_j71545565216996_1_alg».proof.Proof.RefRun
import proofs.«118589_j71545565216996_1_alg».proof.Proof.RefStages

noncomputable section

namespace Cert.RefValue

open Idealize.ShloMosaic Idealize.ShloMosaic.TcCoe Idealize.SL.Sem Idealize.ShloMosaic.StableHlo
open Cert.ReferenceIdeal Cert.ReferenceIdeal.Gen

open Cert.RefRun (ops)

variable {F : FTy → Type} [FloatOps F]

/-! ## The result buffer holds the composed stages -/

attribute [local irreducible] Host.scatterAdd Host.gather Host.rsqrt Host.expm1 concatenate in
set_option maxRecDepth 8192 in
set_option maxHeartbeats 1600000 in
/-- Reading the result buffer after all 119 operations gives `RefStages.result` of the arguments. Going backwards from the
    last selection, every buffer read is either the one the operation at hand wrote, and then it is that operation's
    function of earlier buffers, or an older one, and then the question passes to the operation before; at the start
    only argument buffers remain. The term so obtained is the stages' composition read off the same operations (a
    selection's three operands in the order the operation takes them; the scalar zero that is converted before it is
    broadcast is that zero), so the two sides agree by unfolding alone. Scatter-add, gather, reciprocal square root,
    expm1 and concatenation are never opened: they occur as the same applications on both sides. -/
theorem result_eq (V : Valuation τ sig (Elt F)) :
    after ops V (main_v63 : DevRef τ sig)
      = Cert.RefStages.result (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig))
          (V (main_arg10 : DevRef τ sig)) := by
  simp only [after_cons, after_nil]
  rfl

/-! ## The arguments end as launched

No operation writes an argument's buffer: each writes the one buffer of its own value, and that reference differs
from every argument's, which is decided reference by reference. -/

/-- Closes `after ops V b = V b` for a buffer `b` none of the operations writes. -/
local macro "unwritten" : tactic =>
  `(tactic| (
    refine after_of_forall_not_mem _ _ (List.forall_iff_forall_mem.mp ?_)
    simp only [ops, List.Forall, nullary_writes, unary_writes, binary_writes, ternary_writes, reshape_writes,
      Finset.mem_singleton]
    repeat' apply And.intro
    all_goals exact devRef_ne_of_ne (by decide)))

theorem arg0_eq (V : Valuation τ sig (Elt F)) :
    after ops V (main_arg0 : DevRef τ sig) = V (main_arg0 : DevRef τ sig) := by unwritten

theorem arg1_eq (V : Valuation τ sig (Elt F)) :
    after ops V (main_arg1 : DevRef τ sig) = V (main_arg1 : DevRef τ sig) := by unwritten

theorem arg2_eq (V : Valuation τ sig (Elt F)) :
    after ops V (main_arg2 : DevRef τ sig) = V (main_arg2 : DevRef τ sig) := by unwritten

theorem arg3_eq (V : Valuation τ sig (Elt F)) :
    after ops V (main_arg3 : DevRef τ sig) = V (main_arg3 : DevRef τ sig) := by unwritten

theorem arg4_eq (V : Valuation τ sig (Elt F)) :
    after ops V (main_arg4 : DevRef τ sig) = V (main_arg4 : DevRef τ sig) := by unwritten

theorem arg5_eq (V : Valuation τ sig (Elt F)) :
    after ops V (main_arg5 : DevRef τ sig) = V (main_arg5 : DevRef τ sig) := by unwritten

theorem arg6_eq (V : Valuation τ sig (Elt F)) :
    after ops V (main_arg6 : DevRef τ sig) = V (main_arg6 : DevRef τ sig) := by unwritten

theorem arg7_eq (V : Valuation τ sig (Elt F)) :
    after ops V (main_arg7 : DevRef τ sig) = V (main_arg7 : DevRef τ sig) := by unwritten

theorem arg8_eq (V : Valuation τ sig (Elt F)) :
    after ops V (main_arg8 : DevRef τ sig) = V (main_arg8 : DevRef τ sig) := by unwritten

theorem arg9_eq (V : Valuation τ sig (Elt F)) :
    after ops V (main_arg9 : DevRef τ sig) = V (main_arg9 : DevRef τ sig) := by unwritten

theorem arg10_eq (V : Valuation τ sig (Elt F)) :
    after ops V (main_arg10 : DevRef τ sig) = V (main_arg10 : DevRef τ sig) := by unwritten

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.RefStages.result (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v63).trans (result_eq _), (h c main_arg0).trans (arg0_eq _), (h c main_arg1).trans (arg1_eq _),
        (h c main_arg2).trans (arg2_eq _), (h c main_arg3).trans (arg3_eq _), (h c main_arg4).trans (arg4_eq _),
        (h c main_arg5).trans (arg5_eq _), (h c main_arg6).trans (arg6_eq _), (h c main_arg7).trans (arg7_eq _),
        (h c main_arg8).trans (arg8_eq _), (h c main_arg9).trans (arg9_eq _), (h c main_arg10).trans (arg10_eq _)⟩)
    (Cert.RefRun.run_all m ρ)

end Cert.RefValue

end
-- ==== Proof.Spec.lean ====
/-
  The layer on the extended reals, one ROW at a time. Every stage of both programs is row-local: a node's output row
  is a function of that node's input rows and of the weights. `dense` is a row times a weight matrix plus a bias;
  `cat` lays two rows side by side; `elu x` is `x` where `x > 0` and `e^x - 1` elsewhere. The three row
  functions are the network (`nfRow`), the graph layer's linear transform of `[nfeats | feats]` (`xlRow`) and the
  combining layer on `[nfeats | agg + bgc]` (`outRow`).
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The f32 word of `1.0` is the real number one. -/
theorem ofBits_one : Ideal.ofBits .f32 0x3F800000#32 = 1 := by
  simp [Ideal.ofBits, Ideal.ieee]
  rw [← EReal.coe_mul, ← EReal.coe_one, EReal.coe_eq_coe_iff]
  norm_num

/-- ELU on the extended reals: `x` where `x > 0`, `e^x - 1` elsewhere (`-1` at `-∞`). -/
def elu (x : EReal) : EReal := Scalar.select (Ideal.cmp .ogt x 0) x (Ideal.exp x - 1)

/-- The kernel's spelling, `where (x > 0, x, exp x - 1.0)`, with its two literals read. -/
theorem elu_of_exp_sub (x : EReal) :
    Scalar.select (Ideal.cmp .ogt x (Ideal.ofBits .f32 0x00000000#32)) x (Ideal.exp x - Ideal.ofBits .f32 0x3F800000#32)
      = elu x := by
  rw [Ideal.ofBits_zero_f32, ofBits_one]; rfl

/-- jax's spelling, `where (x > 0, x, 1 · expm1 (where (x > 0, 0, x)))`: where `x > 0` both are `x`; elsewhere the
    inner `where` is `x`, `expm1 x` is `e^x - 1` by definition, and `1 · y = y` on every extended real. -/
theorem elu_of_expm1 (x : EReal) :
    Scalar.select (Ideal.cmp .ogt x (Ideal.ofBits .f32 0x00000000#32)) x
      (Ideal.ofBits .f32 0x3F800000#32
        * (Ideal.exp (Scalar.select (Ideal.cmp .ogt x (Ideal.ofBits .f32 0x00000000#32)) (Ideal.ofBits .f32 0x00000000#32) x) - 1))
      = elu x := by
  rw [Ideal.ofBits_zero_f32, ofBits_one]
  unfold elu Scalar.select
  by_cases h : Ideal.cmp .ogt x 0 = 1
  · rw [if_pos h, if_pos h]
  · rw [if_neg h, if_neg h, if_neg h, one_mul]

/-- A row times a weight matrix, plus a bias: entry `j` is `∑ₖ x k · W k j + b j`. -/
def dense {K N : Nat} (x : Fin K → EReal) (W : Fin K → Fin N → EReal) (b : Fin N → EReal) (j : Fin N) : EReal :=
  (∑ k : Fin K, x k * W k j) + b j

/-- Two rows side by side: the first `A` entries are `a`'s, the rest `b`'s. -/
def cat {A B N : Nat} (hN : N = A + B) (a : Fin A → EReal) (b : Fin B → EReal) (k : Fin N) : EReal :=
  if h : k.val < A then a ⟨k.val, h⟩ else b ⟨k.val - A, by have := k.isLt; omega⟩

theorem cat_left {A B N : Nat} (hN : N = A + B) (a : Fin A → EReal) (b : Fin B → EReal) (k : Fin N) (h : k.val < A) :
    cat hN a b k = a ⟨k.val, h⟩ := dif_pos h

theorem cat_right {A B N : Nat} (hN : N = A + B) (a : Fin A → EReal) (b : Fin B → EReal) (k : Fin N) (h : A ≤ k.val) :
    cat hN a b k = b ⟨k.val - A, by have := k.isLt; omega⟩ := dif_neg (Nat.not_lt.2 h)

/-- A node's network row: `elu (elu (f · W1 + b1) · W2 + b2)`. -/
def nfRow (f : Fin 64 → EReal) (W1 : Fin 64 → Fin 128 → EReal) (b1 : Fin 128 → EReal)
    (W2 : Fin 128 → Fin 128 → EReal) (b2 : Fin 128 → EReal) : Fin 128 → EReal :=
  fun j => elu (dense (fun k => elu (dense f W1 b1 k)) W2 b2 j)

/-- A node's row of the graph layer's linear transform: `[nf | f] · Wgc`. -/
def xlRow (nf : Fin 128 → EReal) (f : Fin 64 → EReal) (Wgc : Fin 192 → Fin 128 → EReal) : Fin 128 → EReal :=
  fun j => ∑ k : Fin 192, cat (A := 128) (B := 64) rfl nf f k * Wgc k j

/-- A node's output row: `elu ([nf | ag + bgc] · Wc + bc)`. -/
def outRow (nf ag bgc : Fin 128 → EReal) (Wc : Fin 256 → Fin 128 → EReal) (bc : Fin 128 → EReal) : Fin 128 → EReal :=
  fun j => elu (dense (cat (A := 128) (B := 128) rfl nf (fun k => ag k + bgc k)) Wc bc j)

end Cert.Spec

end
-- ==== Proof.LibDot.lean ====
/-
  A general lemma: a PLAIN matrix product read at an index. For dimension numbers that contract the left operand's
  axis 1 with the right operand's axis 0 and have no batch axes — `[M, K] · [K, N] → [M, N]` — the kernel's matmul into a
  zero accumulator and the host's `dot_general`, read at row `p` and column `q` at the ideal instance, are both
  `∑ₖ a[p, k] · b[k, q]` over `k : Fin K`: the contraction index is its one coordinate (`contrEquiv1`), and each operand
  index has the coordinates the dimension numbers name.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

variable {M K N : Nat}

/-- The dimension numbers of a plain product `[M, K] · [K, N] → [M, N]`. -/
structure Plain (d : DotDims (⟨2, ![M, K]⟩ : Shape) (⟨2, ![K, N]⟩ : Shape) (⟨2, ![M, N]⟩ : Shape)) : Prop where
  lb : d.lhsBatch = []
  ln : d.lhsNonContracting = [0]
  lc : d.lhsContracting = [1]
  rb : d.rhsBatch = []
  rn : d.rhsNonContracting = [1]
  rc : d.rhsContracting = [0]

variable {d : DotDims (⟨2, ![M, K]⟩ : Shape) (⟨2, ![K, N]⟩ : Shape) (⟨2, ![M, N]⟩ : Shape)}

theorem rank_contr (h : Plain d) : d.contr.rank = 1 := by rw [d.rank_contr, h.lc]; rfl

private theorem val_congr {n : Nat} {s : Fin n → Nat} (j : (a : Fin n) → Fin (s a)) (p q : Nat) (hp : p < n) (hq : q < n)
    (e : p = q) : (j ⟨p, hp⟩).val = (j ⟨q, hq⟩).val := by subst e; rfl

/-- The left operand's row is the result's row. -/
theorem lhs0 (h : Plain d) (j : (⟨2, ![M, N]⟩ : Shape).Idx) (k : d.contr.Idx) : (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The left operand's column is the contraction position. -/
theorem lhs1 (h : Plain d) (j : (⟨2, ![M, N]⟩ : Shape).Idx) (k : d.contr.Idx) :
    (d.lhsIdx j k 1).val = (k ⟨0, by rw [rank_contr h]; exact Nat.one_pos⟩).val :=
  d.lhsIdx_val_of_single h.lc j k

/-- The right operand's row is the contraction position. -/
theorem rhs0 (h : Plain d) (j : (⟨2, ![M, N]⟩ : Shape).Idx) (k : d.contr.Idx) :
    (d.rhsIdx j k 0).val = (k ⟨0, by rw [rank_contr h]; exact Nat.one_pos⟩).val :=
  d.rhsIdx_val_of_single h.rc j k

/-- The right operand's column is the result's column. -/
theorem rhs1 (h : Plain d) (j : (⟨2, ![M, N]⟩ : Shape).Idx) (k : d.contr.Idx) : (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem size_contr (h : Plain d) : d.contr.size ⟨0, by rw [rank_contr h]; exact Nat.one_pos⟩ = K := by
  have e := d.size_contr 0 (by rw [h.lc]; exact Nat.one_pos)
  rw [e]
  simp [h.lc]

/-- The contraction's sum, re-indexed by the contracted axis's coordinate. -/
theorem sum_eq (h : Plain d) (a : (⟨2, ![M, K]⟩ : Shape).Idx → EReal) (b : (⟨2, ![K, N]⟩ : Shape).Idx → EReal)
    (p : Fin M) (q : Fin N) :
    ∑ k : d.contr.Idx, a (d.lhsIdx (ix2 p q) k) * b (d.rhsIdx (ix2 p q) k) = ∑ k : Fin K, a (ix2 p k) * b (ix2 k q) := by
  rw [← Equiv.sum_comp (contrEquiv1 d K (rank_contr h) (size_contr h)).symm]
  refine Finset.sum_congr rfl fun i _ => ?_
  have hi := contrEquiv1_symm_val d K (rank_contr h) (size_contr h) i
  congr 1
  · refine congrArg a (funext fun ax => Fin.ext ?_)
    match ax with
    | ⟨0, _⟩ => exact lhs0 h _ _
    | ⟨1, _⟩ => exact (lhs1 h _ _).trans hi
  · refine congrArg b (funext fun ax => Fin.ext ?_)
    match ax with
    | ⟨0, _⟩ => exact (rhs0 h _ _).trans hi
    | ⟨1, _⟩ => exact rhs1 h _ _

/-- The kernel's matmul into a zero accumulator, at row `p` and column `q`. -/
theorem matmul_zero_apply (h : Plain d) {φ₁ φ₂ : FTy} (prec : Option ContractPrecision)
    (a : FVec Ideal (⟨2, ![M, K]⟩ : Shape) φ₁) (b : FVec Ideal (⟨2, ![K, N]⟩ : Shape) φ₂) (p : Fin M) (q : Fin N) :
    FloatOps.matmul d prec a b (constant (⟨2, ![M, N]⟩ : Shape) .f32 0x00000000#32) (ix2 p q)
      = ∑ k : Fin K, a (ix2 p k) * b (ix2 k q) := by
  rw [Ideal.matmul_constant_zero_apply]; exact sum_eq h a b p q

/-- The host's `dot_general`, at row `p` and column `q`, whatever the schedule. -/
theorem dotGeneral_apply (h : Plain d) {φ₁ φ₂ : FTy} (prec : Option ContractPrecision) (sched : HostSchedule)
    (a : FVec Ideal (⟨2, ![M, K]⟩ : Shape) φ₁) (b : FVec Ideal (⟨2, ![K, N]⟩ : Shape) φ₂) (p : Fin M) (q : Fin N) :
    FloatOps.dotGeneral d prec sched a b (ix2 p q) = ∑ k : Fin K, a (ix2 p k) * b (ix2 k q) := by
  rw [Ideal.dotGeneral_apply]; exact sum_eq h a b p q

end Cert.LibDot

end
-- ==== Proof.RowOps.lean ====
/-
  Rows of the operations both programs apply, read at an index at the ideal instance: a concatenation along the
  columns reads the piece its column falls in (`Spec.cat` of the two rows); the kernel's "matmul into zero, plus a
  bias block broadcast down the rows" is `Spec.dense` of the row; the kernel's activation is `Spec.elu` entry by entry.
-/
import proofs.«118589_j71545565216996_1_alg».proof.Proof.Spec
import proofs.«118589_j71545565216996_1_alg».proof.Proof.LibDot
import Idealize.ShloMosaic.Lib.ValueIdx
import Idealize.ShloMosaic.Lib.Pipeline.Value
import Idealize.ShloMosaic.PureOps.Ideal.Laws

noncomputable section

open scoped BigOperators

namespace Cert.RowOps

open Idealize.ShloMosaic Idealize.ShloMosaic.ValueIdx Cert.Spec

/-- Two arrays laid side by side along the columns, at row `p` and column `k`: the row-wise `cat` of their rows. -/
theorem concat_cols {M A B N : Nat} (hN : N = A + B) (x₁ : (⟨2, ![M, A]⟩ : Shape).Idx → EReal)
    (x₂ : (⟨2, ![M, B]⟩ : Shape).Idx → EReal)
    (h : Shape.Concatenates [(⟨2, ![M, A]⟩ : Shape), (⟨2, ![M, B]⟩ : Shape)] (⟨2, ![M, N]⟩ : Shape) 1) (p : Fin M) (k : Fin N) :
    concatenate (⟨2, ![M, N]⟩ : Shape) 1 [⟨(⟨2, ![M, A]⟩ : Shape), x₁⟩, ⟨(⟨2, ![M, B]⟩ : Shape), x₂⟩] h (ix2 p k)
      = cat hN (fun j => x₁ (ix2 p j)) (fun j => x₂ (ix2 p j)) k := by
  by_cases hk : k.val < A
  · rw [cat_left hN _ _ k hk]
    exact concatenate_pair_apply_left 1 x₁ x₂ h (ix2 p k) rfl (ix2 p ⟨k.val, hk⟩)
      (by intro b; match b with | ⟨0, _⟩ => rfl | ⟨1, _⟩ => rfl)
  · have hk' : A ≤ k.val := Nat.le_of_not_lt hk
    rw [cat_right hN _ _ k hk']
    exact concatenate_pair_apply_right 1 x₁ x₂ h (ix2 p k) rfl rfl (ix2 p ⟨k.val - A, by have := k.isLt; omega⟩)
      (by intro b hb; match b with | ⟨0, _⟩ => rfl | ⟨1, _⟩ => exact absurd rfl hb)
      (by show (k.val - A) + A = k.val; omega)

/-- The kernel's linear step on a row tile: a matmul into a zero accumulator plus a `[1, N]` bias block spread down the
    rows, at row `p` and column `q`, is the row's `dense`. -/
theorem matmul_bias_apply {M K N : Nat} {d : DotDims (⟨2, ![M, K]⟩ : Shape) (⟨2, ![K, N]⟩ : Shape) (⟨2, ![M, N]⟩ : Shape)}
    (hd : LibDot.Plain d) {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hc : (⟨2, ![1, N]⟩ : Shape).ShapeCasts (⟨2, ![1, N]⟩ : Shape))
    (hb : (⟨2, ![1, N]⟩ : Shape).Broadcasts (⟨2, ![M, N]⟩ : Shape)) (p : Fin M) (q : Fin N) :
    addf (matmul d prec a w (constant (⟨2, ![M, N]⟩ : Shape) .f32 0x00000000#32))
        (broadcastTo (⟨2, ![M, N]⟩ : Shape) (shapeCast (⟨2, ![1, N]⟩ : Shape) b hc) hb) (ix2 p q)
      = dense (fun k => a (ix2 p k)) (fun k j => w (ix2 k j)) (fun j => b (ix2 0 j)) q := by
  rw [addf_apply, shapeCast_self]
  unfold dense
  congr 1
  · exact LibDot.matmul_zero_apply hd prec a w p q
  · refine broadcastTo_apply b hb (ix2 p q) (ix2 0 q) ?_
    intro ax
    match ax with
    | ⟨0, _⟩ => rfl
    | ⟨1, _⟩ =>
      show q.val = if N = 1 then 0 else q.val
      split_ifs with h1
      · have := q.isLt; omega
      · rfl

/-- The kernel's activation, `where (x > 0, x, exp x - 1.0)`, entry by entry. -/
theorem elu_exp_sub_apply {s : Shape} (x : FVec Ideal s .f32) (i : s.Idx) :
    select (cmpf .ogt x (broadcast s (Scalar.ofBits (F := Ideal) .f32 0x00000000#32))) x
        (subf (exp x) (broadcast s (Scalar.ofBits (F := Ideal) .f32 0x3F800000#32))) i
      = elu (x i) :=
  elu_of_exp_sub (x i)

end Cert.RowOps

end
-- ==== Proof.KPayload.lean ====
/-
  The three kernel payloads at an index, at the ideal instance: entry `(p, q)` of each stored block is the layer's row
  function (Spec.lean) of row `p` of the loaded blocks and of the weights. The format changes are the identity, each
  matmul into a zero accumulator is the plain sum over the contracted axis, a concatenation along the columns reads the
  piece its column falls in, and the activation is `Spec.elu`.
-/
import proofs.«118589_j71545565216996_1_alg».proof.Proof.Gen.KernelIdeal.Skeleton
import proofs.«118589_j71545565216996_1_alg».proof.Proof.Spec
import proofs.«118589_j71545565216996_1_alg».proof.Proof.LibDot
import proofs.«118589_j71545565216996_1_alg».proof.Proof.RowOps
import Idealize.ShloMosaic.Lib.ValueIdx
import Idealize.ShloMosaic.Lib.Pipeline.Value
import Idealize.ShloMosaic.PureOps.Ideal.Laws

noncomputable section

open scoped BigOperators

namespace Cert.KPayload

open Idealize.ShloMosaic Idealize.ShloMosaic.ValueIdx
open Cert.KernelIdeal Cert.KernelIdeal.Gen Cert.Spec Cert.RowOps

/-! ## The four products are plain `[M, K] · [K, N]` -/

theorem plain64 : LibDot.Plain dot_S5000x64_S64x128_S5000x128_1_0_0_1_n_n := ⟨rfl, rfl, rfl, rfl, rfl, rfl⟩
theorem plain128 : LibDot.Plain dot_S5000x128_S128x128_S5000x128_1_0_0_1_n_n := ⟨rfl, rfl, rfl, rfl, rfl, rfl⟩
theorem plain192 : LibDot.Plain dot_S5000x192_S192x128_S5000x128_1_0_0_1_n_n := ⟨rfl, rfl, rfl, rfl, rfl, rfl⟩
theorem plain256 : LibDot.Plain dot_S5000x256_S256x128_S5000x128_1_0_0_1_n_n := ⟨rfl, rfl, rfl, rfl, rfl, rfl⟩

/-- The first call's first store: the network's row. The outer activation over the second linear step, whose left
    operand's row is the inner activation over the first linear step. -/
theorem pay_nfeats (v0 : Vec Ideal S5000x64 .f32) (v2 : Vec Ideal S64x128 .f32) (v5 : Vec Ideal S1x128 .f32)
    (v15 : Vec Ideal S128x128 .f32) (v19 : Vec Ideal S1x128 .f32) (p : Fin 5000) (q : Fin 128) :
    k0_pay1 (F := Ideal) v0 v2 v5 v15 v19 (ix2 p q)
      = nfRow (fun k => v0 (ix2 p k)) (fun k j => v2 (ix2 k j)) (fun j => v5 (ix2 0 j))
          (fun k j => v15 (ix2 k j)) (fun j => v19 (ix2 0 j)) q := by
  unfold nfRow
  dsimp only [k0_pay1]
  refine (elu_exp_sub_apply _ _).trans (congrArg elu ?_)
  refine (matmul_bias_apply plain128 none _ _ v19 _ _ p q).trans ?_
  unfold dense
  refine congrArg (· + v19 (ix2 0 q)) (Finset.sum_congr rfl fun k _ => congrArg (· * v15 (ix2 k q)) ?_)
  beta_reduce
  rw [truncf_apply]
  refine (elu_exp_sub_apply _ _).trans (congrArg elu ?_)
  exact matmul_bias_apply plain64 none _ _ v5 _ _ p k

/-- The first call's second store: the graph layer's linear transform of `[nfeats | feats]`. -/
theorem pay_xlin (v0 : Vec Ideal S5000x64 .f32) (v2 : Vec Ideal S64x128 .f32) (v5 : Vec Ideal S1x128 .f32)
    (v15 : Vec Ideal S128x128 .f32) (v19 : Vec Ideal S1x128 .f32) (v31 : Vec Ideal S192x128 .f32) (p : Fin 5000) (q : Fin 128) :
    k0_pay2 (F := Ideal) v0 v2 v5 v15 v19 v31 (ix2 p q)
      = xlRow (nfRow (fun k => v0 (ix2 p k)) (fun k j => v2 (ix2 k j)) (fun j => v5 (ix2 0 j))
          (fun k j => v15 (ix2 k j)) (fun j => v19 (ix2 0 j))) (fun k => v0 (ix2 p k)) (fun k j => v31 (ix2 k j)) q := by
  unfold xlRow
  dsimp only [k0_pay2]
  refine (LibDot.matmul_zero_apply plain192 none _ _ p q).trans ?_
  refine Finset.sum_congr rfl fun k _ => congrArg (· * v31 (ix2 k q)) ?_
  beta_reduce
  rw [truncf_apply]
  refine (concat_cols (A := 128) (B := 64) rfl _ _ _ p k).trans ?_
  exact congrArg (fun f => cat (A := 128) (B := 64) rfl f (fun j => v0 (ix2 p j)) k)
    (funext fun j => pay_nfeats v0 v2 v5 v15 v19 p j)

/-- The second call's store: the combining layer's row. -/
theorem pay_out (v0 v2 : Vec Ideal S5000x128 .f32) (v4 : Vec Ideal S1x128 .f32) (v9 : Vec Ideal S256x128 .f32)
    (v13 : Vec Ideal S1x128 .f32) (p : Fin 5000) (q : Fin 128) :
    k1_pay1 (F := Ideal) v0 v2 v4 v9 v13 (ix2 p q)
      = outRow (fun k => v0 (ix2 p k)) (fun k => v2 (ix2 p k)) (fun j => v4 (ix2 0 j)) (fun k j => v9 (ix2 k j))
          (fun j => v13 (ix2 0 j)) q := by
  unfold outRow
  dsimp only [k1_pay1]
  refine (elu_exp_sub_apply _ _).trans (congrArg elu ?_)
  refine (matmul_bias_apply plain256 none _ _ v13 _ _ p q).trans ?_
  unfold dense
  refine congrArg (· + v13 (ix2 0 q)) (Finset.sum_congr rfl fun k _ => congrArg (· * v9 (ix2 k q)) ?_)
  beta_reduce
  rw [truncf_apply]
  refine (concat_cols (A := 128) (B := 128) rfl _ _ _ p k).trans ?_
  simp only [shapeCast_self]
  refine congrArg (fun g => cat (A := 128) (B := 128) rfl (fun j => v0 (ix2 p j)) g k) (funext fun j => ?_)
  rw [addf_apply]
  refine congrArg (v2 (ix2 p j) + ·) ?_
  exact broadcastTo_apply v4 _ (ix2 p j) (ix2 0 j) (by intro ax; match ax with | ⟨0, _⟩ => rfl | ⟨1, _⟩ => rfl)

end Cert.KPayload

end
-- ==== Proof.KBlocks.lean ====
/-
  From blocks to arrays. Each pallas_call runs over twenty row tiles of 5000 rows; tile `t` reads rows
  `5000 t … 5000 t + 4999` of its row-tiled operands and the whole of every weight, and writes the same rows of its
  results. Since every payload is row-local (KPayload.lean), the array a call leaves is the row function of the arrays
  it was entered at, row by row: `final0_6` (the network), `final0_7` (the linear transform) and `final1_5` (the output),
  each at ANY entry contents `V`.
-/
import proofs.«118589_j71545565216996_1_alg».proof.Proof.Gen.KernelIdeal.Frame
import proofs.«118589_j71545565216996_1_alg».proof.Proof.KPayload
import Idealize.ShloMosaic.Lib.Pipeline.Value

set_option maxRecDepth 16384

noncomputable section

namespace Cert.KBlocks

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- The network's rows, from the first call's entry contents. -/
def nfAt (c : Dev nD) (r : Fin 100000) : Fin 128 → EReal :=
  nfRow (fun k => (V c main_arg0 : Vec Ideal S100000x64 .f32) (ix2 r k))
    (fun k j => (V c main_arg3 : Vec Ideal S64x128 .f32) (ix2 k j)) (fun j => (V c main_v0 : Vec Ideal S1x128 .f32) (ix2 0 j))
    (fun k j => (V c main_arg5 : Vec Ideal S128x128 .f32) (ix2 k j)) (fun j => (V c main_v1 : Vec Ideal S1x128 .f32) (ix2 0 j))

/-! ## The first call -/

/-- The zero offsets of a whole-buffer access, as the constant function. -/
theorem zero_offsets : (![0, 0] : Fin 2 → Nat) = fun _ => 0 := funext fun a => by fin_cases a <;> rfl

/-- The first call's index maps over its twenty row tiles: a row-tiled window's block index at tile `t` is `(t, 0)`,
    a weight's or bias's is `(0, 0)`. -/
theorem tile_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of tile `t` of the features is row `5000 t + p` of the array. -/
theorem feats_tile (c : Dev nD) (t : Fin cfg0.N) (p : Fin 5000) (k : Fin 64) (r : Fin 100000)
    (hr : r.val = t.val * 5000 + p.val) :
    (iblk0 V c 0 t : Vec Ideal S5000x64 .f32) (ix2 p k) = (V c main_arg0 : Vec Ideal S100000x64 .f32) (ix2 r k) := by
  obtain ⟨e0, e1, -⟩ := tile_index0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The first layer's weights are read whole at every tile. -/
theorem w1_tile (c : Dev nD) (t : Fin cfg0.N) (k : Fin 64) (j : Fin 128) :
    (iblk0 V c 1 t : Vec Ideal S64x128 .f32) (ix2 k j) = (V c main_arg3 : Vec Ideal S64x128 .f32) (ix2 k j) := by
  obtain ⟨-, -, e0, e1, -⟩ := tile_index0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * j.val = j.val; rw [e1]; omega

/-- The first layer's bias is read whole at every tile. -/
theorem b1_tile (c : Dev nD) (t : Fin cfg0.N) (j : Fin 128) :
    (iblk0 V c 2 t : Vec Ideal S1x128 .f32) (ix2 0 j) = (V c main_v0 : Vec Ideal S1x128 .f32) (ix2 0 j) := by
  obtain ⟨-, -, -, -, e0, e1, -⟩ := tile_index0 t
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 128 + 1 * j.val = j.val; rw [e1]; omega

/-- The second layer's weights are read whole at every tile. -/
theorem w2_tile (c : Dev nD) (t : Fin cfg0.N) (k : Fin 128) (j : Fin 128) :
    (iblk0 V c 3 t : Vec Ideal S128x128 .f32) (ix2 k j) = (V c main_arg5 : Vec Ideal S128x128 .f32) (ix2 k j) := by
  obtain ⟨-, -, -, -, -, -, e0, e1, -⟩ := tile_index0 t
  unfold iblk0
  rw [View.read_apply]
  show V c main_arg5 _ = V c main_arg5 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The second layer's bias is read whole at every tile. -/
theorem b2_tile (c : Dev nD) (t : Fin cfg0.N) (j : Fin 128) :
    (iblk0 V c 4 t : Vec Ideal S1x128 .f32) (ix2 0 j) = (V c main_v1 : Vec Ideal S1x128 .f32) (ix2 0 j) := by
  obtain ⟨-, -, -, -, -, -, -, -, e0, e1, -⟩ := tile_index0 t
  unfold iblk0
  rw [View.read_apply]
  show V c main_v1 _ = V c main_v1 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 128 + 1 * j.val = j.val; rw [e1]; omega

/-- The network's payload at an entry of a tile whose row `p` is row `r` of the features and whose weights are the
    arrays': the network's row `r`. -/
theorem nf_point (x0 : Vec Ideal S5000x64 .f32) (x1 : Vec Ideal S64x128 .f32) (x2 : Vec Ideal S1x128 .f32)
    (x3 : Vec Ideal S128x128 .f32) (x4 : Vec Ideal S1x128 .f32)
    (A0 : Vec Ideal S100000x64 .f32) (A1 : Vec Ideal S64x128 .f32) (A2 : Vec Ideal S1x128 .f32)
    (A3 : Vec Ideal S128x128 .f32) (A4 : Vec Ideal S1x128 .f32)
    (p : Fin 5000) (q : Fin 128) (r : Fin 100000)
    (h0 : ∀ k, x0 (ix2 p k) = A0 (ix2 r k)) (h1 : ∀ k j, x1 (ix2 k j) = A1 (ix2 k j))
    (h2 : ∀ j, x2 (ix2 0 j) = A2 (ix2 0 j)) (h3 : ∀ k j, x3 (ix2 k j) = A3 (ix2 k j))
    (h4 : ∀ j, x4 (ix2 0 j) = A4 (ix2 0 j)) :
    k0_pay1 (F := Ideal) x0 x1 x2 x3 x4 (ix2 p q)
      = nfRow (fun k => A0 (ix2 r k)) (fun k j => A1 (ix2 k j)) (fun j => A2 (ix2 0 j))
          (fun k j => A3 (ix2 k j)) (fun j => A4 (ix2 0 j)) q := by
  rw [Cert.KPayload.pay_nfeats]
  simp only [h0, h1, h2, h3, h4]

/-- Two tiles of results agree when they agree entry by entry. -/
theorem tile_ext (X Y : Vec Ideal S5000x128 .f32) (h : ∀ p q, X (ix2 p q) = Y (ix2 p q)) : X = Y :=
  funext fun j => by rw [eq_ix2 j]; exact h _ _

/-- Entry `(p, q)` of tile `t` of the network's result array sits at row `5000 t + p`, column `q`. -/
theorem nf_tile_emb (t : Fin cfg0.N) (p : Fin 5000) (q : Fin 128) (r : Fin 100000) (hr : r.val = t.val * 5000 + p.val) :
    (((cfg0.win 6).blk t).view.emb (ix2 p q) : S100000x128.Idx) = ix2 r q := by
  obtain ⟨-, -, -, -, -, -, -, -, -, -, -, -, e0, e1, -⟩ := tile_index0 t
  funext a
  apply Fin.ext
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-- What tile `t` writes back to the network's result array is tile `t` of the network's rows. -/
theorem nf_written (c : Dev nD) (t : Fin cfg0.N) :
    (dat0 V c).flushed 6 t = ((cfg0.win 6).blk t).view.read (Elt Ideal)
      (fun i : S100000x128.Idx => nfAt V c (i 0) (i 1)) := by
  show (cfg0.win 6).cut (grid0.coords t) ((dat0 V c).after 6 t) = _
  rw [after0_6]
  unfold out0_6
  rw [View.canon_unit_zero zero_offsets]
  simp only [View.ld_unit_zero (S := S5000x64) zero_offsets, View.ld_unit_zero (S := S64x128) zero_offsets,
    View.ld_unit_zero (S := S1x128) zero_offsets, View.ld_unit_zero (S := S128x128) zero_offsets]
  refine tile_ext _ _ fun p q => ?_
  have hlt : t.val * 5000 + p.val < 100000 := by
    have ht : t.val < 20 := t.isLt
    have hp : p.val < 5000 := p.isLt
    omega
  show k0_pay1 (F := Ideal) (iblk0 V c 0 t) (iblk0 V c 1 t) (iblk0 V c 2 t) (iblk0 V c 3 t) (iblk0 V c 4 t) (ix2 p q)
    = (fun i : S100000x128.Idx => nfAt V c (i 0) (i 1)) (((cfg0.win 6).blk t).view.emb (ix2 p q))
  rw [nf_tile_emb t p q ⟨t.val * 5000 + p.val, hlt⟩ rfl]
  exact nf_point _ _ _ _ _ _ _ _ _ _ p q ⟨t.val * 5000 + p.val, hlt⟩
    (fun k => feats_tile V c t p k _ rfl) (fun k j => w1_tile V c t k j) (fun j => b1_tile V c t j)
    (fun k j => w2_tile V c t k j) (fun j => b2_tile V c t j)

/-- An entry of the network's result array is in tile `t` iff each of its coordinates is in the tile's range. -/
theorem nf_mem_tile (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v2_0).slice (win0_6.rect t)).set ↔ _
  rw [View.set_slice_whole, Rect.mem_set_unit]
  exact Iff.rfl

/-- Every entry of the network's result array is written: row `r` by tile `r / 5000`. -/
theorem nf_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < cfg0.N := by show _ < 20; omega
  refine ⟨⟨(i 0).val / 5000, ht⟩, flush0_6 _, ?_⟩
  rw [nf_mem_tile]
  obtain ⟨-, -, -, -, -, -, -, -, -, -, -, -, e0, e1, -⟩ := tile_index0 ⟨(i 0).val / 5000, ht⟩
  have e0' : win0_6.index ⟨(i 0).val / 5000, ht⟩ (0 : Fin 2) = (i 0).val / 5000 := e0
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0']; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]; omega

/-- After the first call its first result array holds the network's rows. -/
theorem final0_6 (c : Dev nD) :
    ((dat0 V c).arrAt 6 cfg0.N : Vec Ideal S100000x128 .f32) = fun i => nfAt V c (i 0) (i 1) := by
  exact (dat0 V c).arrAt_eq_of_cover 6 (fun i : S100000x128.Idx => nfAt V c (i 0) (i 1))
    (fun t _ => nf_written V c t) nf_cover

/-- The graph layer's weights are read whole at every tile. -/
theorem wgc_tile (c : Dev nD) (t : Fin cfg0.N) (k : Fin 192) (j : Fin 128) :
    (iblk0 V c 5 t : Vec Ideal S192x128 .f32) (ix2 k j) = (V c main_arg7 : Vec Ideal S192x128 .f32) (ix2 k j) := by
  obtain ⟨-, -, -, -, -, -, -, -, -, -, e0, e1, -⟩ := tile_index0 t
  unfold iblk0
  rw [View.read_apply]
  show V c main_arg7 _ = V c main_arg7 _
  congr 1
  funext a
  apply Fin.ext
  match a with
  | ⟨0, _⟩ => show win0_5.index t (0 : Fin 2) * 192 + 1 * k.val = k.val; rw [e0]; omega
  | ⟨1, _⟩ => show win0_5.index t (1 : Fin 2) * 128 + 1 * j.val = j.val; rw [e1]; omega

/-- The linear transform's payload at an entry of a tile whose row `p` is row `r` of the features and whose weights
    are the arrays': the linear transform's row `r`. -/
theorem xl_point (x0 : Vec Ideal S5000x64 .f32) (x1 : Vec Ideal S64x128 .f32) (x2 : Vec Ideal S1x128 .f32)
    (x3 : Vec Ideal S128x128 .f32) (x4 : Vec Ideal S1x128 .f32) (x5 : Vec Ideal S192x128 .f32)
    (A0 : Vec Ideal S100000x64 .f32) (A1 : Vec Ideal S64x128 .f32) (A2 : Vec Ideal S1x128 .f32)
    (A3 : Vec Ideal S128x128 .f32) (A4 : Vec Ideal S1x128 .f32) (A5 : Vec Ideal S192x128 .f32)
    (p : Fin 5000) (q : Fin 128) (r : Fin 100000)
    (h0 : ∀ k, x0 (ix2 p k) = A0 (ix2 r k)) (h1 : ∀ k j, x1 (ix2 k j) = A1 (ix2 k j))
    (h2 : ∀ j, x2 (ix2 0 j) = A2 (ix2 0 j)) (h3 : ∀ k j, x3 (ix2 k j) = A3 (ix2 k j))
    (h4 : ∀ j, x4 (ix2 0 j) = A4 (ix2 0 j)) (h5 : ∀ k j, x5 (ix2 k j) = A5 (ix2 k j)) :
    k0_pay2 (F := Ideal) x0 x1 x2 x3 x4 x5 (ix2 p q)
      = xlRow (nfRow (fun k => A0 (ix2 r k)) (fun k j => A1 (ix2 k j)) (fun j => A2 (ix2 0 j))
          (fun k j => A3 (ix2 k j)) (fun j => A4 (ix2 0 j))) (fun k => A0 (ix2 r k)) (fun k j => A5 (ix2 k j)) q := by
  rw [Cert.KPayload.pay_xlin]
  simp only [h0, h1, h2, h3, h4, h5]

/-- Entry `(p, q)` of tile `t` of the linear transform's result array sits at row `5000 t + p`, column `q`. -/
theorem xl_tile_emb (t : Fin cfg0.N) (p : Fin 5000) (q : Fin 128) (r : Fin 100000) (hr : r.val = t.val * 5000 + p.val) :
    (((cfg0.win 7).blk t).view.emb (ix2 p q) : S100000x128.Idx) = ix2 r q := by
  obtain ⟨-, -, -, -, -, -, -, -, -, -, -, -, -, -, e0, e1⟩ := tile_index0 t
  funext a
  apply Fin.ext
  match a with
  | ⟨0, _⟩ => show win0_7.index t (0 : Fin 2) * 5000 + 1 * p.val = r.val; rw [e0, hr]; omega
  | ⟨1, _⟩ => show win0_7.index t (1 : Fin 2) * 128 + 1 * q.val = q.val; rw [e1]; omega

/-- What tile `t` writes back to the linear transform's result array is tile `t` of the linear transform's rows. -/
theorem xl_written (c : Dev nD) (t : Fin cfg0.N) :
    (dat0 V c).flushed 7 t = ((cfg0.win 7).blk t).view.read (Elt Ideal)
      (fun i : S100000x128.Idx => xlRow (nfAt V c (i 0))
        (fun k => (V c main_arg0 : Vec Ideal S100000x64 .f32) (ix2 (i 0) k))
        (fun k j => (V c main_arg7 : Vec Ideal S192x128 .f32) (ix2 k j)) (i 1)) := by
  show (cfg0.win 7).cut (grid0.coords t) ((dat0 V c).after 7 t) = _
  rw [after0_7]
  unfold out0_7
  rw [View.canon_unit_zero zero_offsets]
  simp only [View.ld_unit_zero (S := S5000x64) zero_offsets, View.ld_unit_zero (S := S64x128) zero_offsets,
    View.ld_unit_zero (S := S1x128) zero_offsets, View.ld_unit_zero (S := S128x128) zero_offsets,
    View.ld_unit_zero (S := S192x128) zero_offsets]
  refine tile_ext _ _ fun p q => ?_
  have hlt : t.val * 5000 + p.val < 100000 := by
    have ht : t.val < 20 := t.isLt
    have hp : p.val < 5000 := p.isLt
    omega
  show k0_pay2 (F := Ideal) (iblk0 V c 0 t) (iblk0 V c 1 t) (iblk0 V c 2 t) (iblk0 V c 3 t) (iblk0 V c 4 t)
      (iblk0 V c 5 t) (ix2 p q)
    = (fun i : S100000x128.Idx => xlRow (nfAt V c (i 0))
        (fun k => (V c main_arg0 : Vec Ideal S100000x64 .f32) (ix2 (i 0) k))
        (fun k j => (V c main_arg7 : Vec Ideal S192x128 .f32) (ix2 k j)) (i 1))
      (((cfg0.win 7).blk t).view.emb (ix2 p q))
  rw [xl_tile_emb t p q ⟨t.val * 5000 + p.val, hlt⟩ rfl]
  exact xl_point _ _ _ _ _ _ _ _ _ _ _ _ p q ⟨t.val * 5000 + p.val, hlt⟩
    (fun k => feats_tile V c t p k _ rfl) (fun k j => w1_tile V c t k j) (fun j => b1_tile V c t j)
    (fun k j => w2_tile V c t k j) (fun j => b2_tile V c t j) (fun k j => wgc_tile V c t k j)

/-- An entry of the linear transform's result array is in tile `t` iff each of its coordinates is in the tile's range. -/
theorem xl_mem_tile (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v2_1).slice (win0_7.rect t)).set ↔ _
  rw [View.set_slice_whole, Rect.mem_set_unit]
  exact Iff.rfl

/-- Every entry of the linear transform's result array is written: row `r` by tile `r / 5000`. -/
theorem xl_cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 5000 < cfg0.N := by show _ < 20; omega
  refine ⟨⟨(i 0).val / 5000, ht⟩, flush0_7 _, ?_⟩
  rw [xl_mem_tile]
  obtain ⟨-, -, -, -, -, -, -, -, -, -, -, -, -, -, e0, e1⟩ := tile_index0 ⟨(i 0).val / 5000, ht⟩
  have e0' : win0_7.index ⟨(i 0).val / 5000, ht⟩ (0 : Fin 2) = (i 0).val / 5000 := e0
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0']; omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e1]; omega

/-- After the first call its second result array holds the linear transform's rows. -/
theorem final0_7 (c : Dev nD) :
    ((dat0 V c).arrAt 7 cfg0.N : Vec Ideal S100000x128 .f32) = fun i =>
      xlRow (nfAt V c (i 0)) (fun k => (V c main_arg0 : Vec Ideal S100000x64 .f32) (ix2 (i 0) k))
        (fun k j => (V c main_arg7 : Vec Ideal S192x128 .f32) (ix2 k j)) (i 1) := by
  exact (dat0 V c).arrAt_eq_of_cover 7
    (fun i : S100000x128.Idx => xlRow (nfAt V c (i 0))
      (fun k => (V c main_arg0 : Vec Ideal S100000x64 .f32) (ix2 (i 0) k))
      (fun k j => (V c main_arg7 : Vec Ideal S192x128 .f32) (ix2 k j)) (i 1))
    (fun t _ => xl_written V c t) xl_cover

/-! ## The second call -/

/-- The second call's index maps over its twenty row tiles: a row-tiled window's block index at tile `t` is `(t, 0)`,
    a weight's or bias's is `(0, 0)`. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of tile `t` of the network's rows is row `5000 t + p` of the array. -/
theorem nfeats_tile (c : Dev nD) (t : Fin cfg1.N) (p : Fin 5000) (k : Fin 128) (r : Fin 100000)
    (hr : r.val = t.val * 5000 + p.val) :
    (iblk1 V c 0 t : Vec Ideal S5000x128 .f32) (ix2 p k) = (V c main_v2_0 : Vec Ideal S100000x128 .f32) (ix2 r k) := by
  obtain ⟨e0, e1, -⟩ := tile_index1 t
  unfold iblk1
  rw [View.read_apply]
  show V c main_v2_0 _ = V c main_v2_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row `p` of tile `t` of the aggregated rows is row `5000 t + p` of the array. -/
theorem agg_tile (c : Dev nD) (t : Fin cfg1.N) (p : Fin 5000) (k : Fin 128) (r : Fin 100000)
    (hr : r.val = t.val * 5000 + p.val) :
    (iblk1 V c 1 t : Vec Ideal S5000x128 .f32) (ix2 p k) = (V c main_v45 : Vec Ideal S100000x128 .f32) (ix2 r k) := by
  obtain ⟨-, -, e0, e1, -⟩ := tile_index1 t
  unfold iblk1
  rw [View.read_apply]
  show V c main_v45 _ = V c main_v45 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The graph layer's bias is read whole at every tile. -/
theorem bgc_tile (c : Dev nD) (t : Fin cfg1.N) (j : Fin 128) :
    (iblk1 V c 2 t : Vec Ideal S1x128 .f32) (ix2 0 j) = (V c main_v46 : Vec Ideal S1x128 .f32) (ix2 0 j) := by
  obtain ⟨-, -, -, -, e0, e1, -⟩ := tile_index1 t
  unfold iblk1
  rw [View.read_apply]
  show V c main_v46 _ = V c main_v46 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * j.val = j.val; rw [e1]; omega

/-- The combining layer's weights are read whole at every tile. -/
theorem wc_tile (c : Dev nD) (t : Fin cfg1.N) (k : Fin 256) (j : Fin 128) :
    (iblk1 V c 3 t : Vec Ideal S256x128 .f32) (ix2 k j) = (V c main_arg9 : Vec Ideal S256x128 .f32) (ix2 k j) := by
  obtain ⟨-, -, -, -, -, -, e0, e1, -⟩ := tile_index1 t
  unfold iblk1
  rw [View.read_apply]
  show V c main_arg9 _ = V c main_arg9 _
  congr 1
  funext a
  apply Fin.ext
  match a with
  | ⟨0, _⟩ => show win1_3.index t (0 : Fin 2) * 256 + 1 * k.val = k.val; rw [e0]; omega
  | ⟨1, _⟩ => show win1_3.index t (1 : Fin 2) * 128 + 1 * j.val = j.val; rw [e1]; omega

/-- The combining layer's bias is read whole at every tile. -/
theorem bc_tile (c : Dev nD) (t : Fin cfg1.N) (j : Fin 128) :
    (iblk1 V c 4 t : Vec Ideal S1x128 .f32) (ix2 0 j) = (V c main_v47 : Vec Ideal S1x128 .f32) (ix2 0 j) := by
  obtain ⟨-, -, -, -, -, -, -, -, e0, e1, -⟩ := tile_index1 t
  unfold iblk1
  rw [View.read_apply]
  show V c main_v47 _ = V c main_v47 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * j.val = j.val; rw [e1]; omega

/-- The combining layer's payload at an entry of a tile whose row `p` is row `r` of the two row arrays and whose
    weights are the arrays': the combining layer's row `r`. -/
theorem out_point (x0 x1 : Vec Ideal S5000x128 .f32) (x2 : Vec Ideal S1x128 .f32) (x3 : Vec Ideal S256x128 .f32)
    (x4 : Vec Ideal S1x128 .f32)
    (A0 A1 : Vec Ideal S100000x128 .f32) (A2 : Vec Ideal S1x128 .f32) (A3 : Vec Ideal S256x128 .f32)
    (A4 : Vec Ideal S1x128 .f32)
    (p : Fin 5000) (q : Fin 128) (r : Fin 100000)
    (h0 : ∀ k, x0 (ix2 p k) = A0 (ix2 r k)) (h1 : ∀ k, x1 (ix2 p k) = A1 (ix2 r k))
    (h2 : ∀ j, x2 (ix2 0 j) = A2 (ix2 0 j)) (h3 : ∀ k j, x3 (ix2 k j) = A3 (ix2 k j))
    (h4 : ∀ j, x4 (ix2 0 j) = A4 (ix2 0 j)) :
    k1_pay1 (F := Ideal) x0 x1 x2 x3 x4 (ix2 p q)
      = outRow (fun k => A0 (ix2 r k)) (fun k => A1 (ix2 r k)) (fun j => A2 (ix2 0 j))
          (fun k j => A3 (ix2 k j)) (fun j => A4 (ix2 0 j)) q := by
  rw [Cert.KPayload.pay_out]
  simp only [h0, h1, h2, h3, h4]

/-- Entry `(p, q)` of tile `t` of the output array sits at row `5000 t + p`, column `q`. -/
theorem out_tile_emb (t : Fin cfg1.N) (p : Fin 5000) (q : Fin 128) (r : Fin 100000) (hr : r.val = t.val * 5000 + p.val) :
    (((cfg1.win 5).blk t).view.emb (ix2 p q) : S100000x128.Idx) = ix2 r q := by
  obtain ⟨-, -, -, -, -, -, -, -, -, -, e0, e1⟩ := tile_index1 t
  funext a
  apply Fin.ext
  match a with
  | ⟨0, _⟩ => show win1_5.index t (0 : Fin 2) * 5000 + 1 * p.val = r.val; rw [e0, hr]; omega
  | ⟨1, _⟩ => show win1_5.index t (1 : Fin 2) * 128 + 1 * q.val = q.val; rw [e1]; omega

/-- What tile `t` writes back to the output array is tile `t` of the combining layer's rows. -/
theorem out_written (c : Dev nD) (t : Fin cfg1.N) :
    (dat1 V c).flushed 5 t = ((cfg1.win 5).blk t).view.read (Elt Ideal)
      (fun i : S100000x128.Idx =>
        outRow (fun k => (V c main_v2_0 : Vec Ideal S100000x128 .f32) (ix2 (i 0) k))
          (fun k => (V c main_v45 : Vec Ideal S100000x128 .f32) (ix2 (i 0) k))
          (fun j => (V c main_v46 : Vec Ideal S1x128 .f32) (ix2 0 j))
          (fun k j => (V c main_arg9 : Vec Ideal S256x128 .f32) (ix2 k j))
          (fun j => (V c main_v47 : Vec Ideal S1x128 .f32) (ix2 0 j)) (i 1)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets,
    View.ld_unit_zero (S := S256x128) zero_offsets]
  refine tile_ext _ _ fun p q => ?_
  have hlt : t.val * 5000 + p.val < 100000 := by
    have ht : t.val < 20 := t.isLt
    have hp : p.val < 5000 := p.isLt
    omega
  show k1_pay1 (F := Ideal) (iblk1 V c 0 t) (iblk1 V c 1 t) (iblk1 V c 2 t) (iblk1 V c 3 t) (iblk1 V c 4 t) (ix2 p q)
    = (fun i : S100000x128.Idx =>
        outRow (fun k => (V c main_v2_0 : Vec Ideal S100000x128 .f32) (ix2 (i 0) k))
          (fun k => (V c main_v45 : Vec Ideal S100000x128 .f32) (ix2 (i 0) k))
          (fun j => (V c main_v46 : Vec Ideal S1x128 .f32) (ix2 0 j))
          (fun k j => (V c main_arg9 : Vec Ideal S256x128 .f32) (ix2 k j))
          (fun j => (V c main_v47 : Vec Ideal S1x128 .f32) (ix2 0 j)) (i 1))
      (((cfg1.win 5).blk t).view.emb (ix2 p q))
  rw [out_tile_emb t p q ⟨t.val * 5000 + p.val, hlt⟩ rfl]
  exact out_point _ _ _ _ _ _ _ _ _ _ p q ⟨t.val * 5000 + p.val, hlt⟩
    (fun k => nfeats_tile V c t p k _ rfl) (fun k => agg_tile V c t p k _ rfl) (fun j => bgc_tile V c t j)
    (fun k j => wc_tile V c t k j) (fun j => bc_tile V c t j)

/-- An entry of the output array is in tile `t` iff each of its coordinates is in the tile's range. -/
theorem out_mem_tile (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v48).slice (win1_5.rect t)).set ↔ _
  rw [View.set_slice_whole, Rect.mem_set_unit]
  exact Iff.rfl

/-- Every entry of the output array is written: row `r` by tile `r / 5000`. -/
theorem out_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by show _ < 20; omega
  refine ⟨⟨(i 0).val / 5000, ht⟩, flush1_5 _, ?_⟩
  rw [out_mem_tile]
  obtain ⟨-, -, -, -, -, -, -, -, -, -, e0, e1⟩ := tile_index1 ⟨(i 0).val / 5000, ht⟩
  have e0' : win1_5.index ⟨(i 0).val / 5000, ht⟩ (0 : Fin 2) = (i 0).val / 5000 := e0
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0']; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- After the second call its result array holds the combining layer's rows of ITS entry contents. -/
theorem final1_5 (c : Dev nD) :
    ((dat1 V c).arrAt 5 cfg1.N : Vec Ideal S100000x128 .f32) = fun i =>
      outRow (fun k => (V c main_v2_0 : Vec Ideal S100000x128 .f32) (ix2 (i 0) k))
        (fun k => (V c main_v45 : Vec Ideal S100000x128 .f32) (ix2 (i 0) k))
        (fun j => (V c main_v46 : Vec Ideal S1x128 .f32) (ix2 0 j))
        (fun k j => (V c main_arg9 : Vec Ideal S256x128 .f32) (ix2 k j))
        (fun j => (V c main_v47 : Vec Ideal S1x128 .f32) (ix2 0 j)) (i 1) := by
  exact (dat1 V c).arrAt_eq_of_cover 5
    (fun i : S100000x128.Idx =>
      outRow (fun k => (V c main_v2_0 : Vec Ideal S100000x128 .f32) (ix2 (i 0) k))
        (fun k => (V c main_v45 : Vec Ideal S100000x128 .f32) (ix2 (i 0) k))
        (fun j => (V c main_v46 : Vec Ideal S1x128 .f32) (ix2 0 j))
        (fun k j => (V c main_arg9 : Vec Ideal S256x128 .f32) (ix2 k j))
        (fun j => (V c main_v47 : Vec Ideal S1x128 .f32) (ix2 0 j)) (i 1))
    (fun t _ => out_written V c t) out_cover

end Cert.KBlocks

end
-- ==== Proof.RefIndex.lean ====
/-
  The reference's stages read at an index, at the ideal instance: row `r`, column `j` of each stage is the layer's row
  function (Spec.lean) of row `r` of its operands. Each `dot_general` is the plain sum over the contracted axis, a bias
  broadcast reads the bias at the column, a concatenation along the columns reads the piece its column falls in, and
  jax's `elu` is `Spec.elu`.
-/
import proofs.«118589_j71545565216996_1_alg».proof.Proof.RefStages
import proofs.«118589_j71545565216996_1_alg».proof.Proof.Spec
import proofs.«118589_j71545565216996_1_alg».proof.Proof.LibDot
import proofs.«118589_j71545565216996_1_alg».proof.Proof.RowOps
import Idealize.ShloMosaic.Lib.ValueIdx
import Idealize.ShloMosaic.Lib.Pipeline.Value
import Idealize.ShloMosaic.PureOps.Ideal.Laws

noncomputable section

open scoped BigOperators

namespace Cert.RefIndex

open Idealize.ShloMosaic Idealize.ShloMosaic.ValueIdx
open Cert.ReferenceIdeal Cert.ReferenceIdeal.Facts₀ Cert.Spec Cert.RowOps

/-! ## The four products are plain `[M, K] · [K, N]` -/

theorem plain64 : LibDot.Plain dot_S100000x64_S64x128_S100000x128_1_0_0_1_n_n := ⟨rfl, rfl, rfl, rfl, rfl, rfl⟩
theorem plain128 : LibDot.Plain dot_S100000x128_S128x128_S100000x128_1_0_0_1_n_n := ⟨rfl, rfl, rfl, rfl, rfl, rfl⟩
theorem plain192 : LibDot.Plain dot_S100000x192_S192x128_S100000x128_1_0_0_1_n_n := ⟨rfl, rfl, rfl, rfl, rfl, rfl⟩
theorem plain256 : LibDot.Plain dot_S100000x256_S256x128_S100000x128_1_0_0_1_n_n := ⟨rfl, rfl, rfl, rfl, rfl, rfl⟩

/-- jax's `elu`, entry by entry: the splat constants read their words, `expm1` is `e^x - 1`. -/
theorem elu_apply (x : FVec Ideal S100000x128 .f32) (i : S100000x128.Idx) : Cert.RefStages.elu x i = elu (x i) :=
  elu_of_expm1 (x i)

/-- A bias repeated down the rows reads the bias at the column. -/
theorem bias_apply (b : FVec Ideal S128 .f32) (r : Fin 100000) (j : Fin 128) : Cert.RefStages.bias b (ix2 r j) = b (ix1 j) := by
  unfold Cert.RefStages.bias
  refine (broadcastInDim_apply ![0, 1] bcast_S1x128_S100000x128_0_1 (broadcastInDim S1x128 ![1] bcast_S128_S1x128_1 b)
    (ix2 r j) (ix2 (0 : Fin 1) j : S1x128.Idx) (by intro ax; match ax with | ⟨0, _⟩ => rfl | ⟨1, _⟩ => rfl)).trans ?_
  exact broadcastInDim_apply ![1] bcast_S128_S1x128_1 b (ix2 (0 : Fin 1) j : S1x128.Idx) (ix1 j : S128.Idx)
    (by intro ax; match ax with | ⟨0, _⟩ => rfl)

/-- A linear step of the reference, `a · w + bias b`, at row `r` and column `j`: the row's `dense`. -/
theorem lin_apply {K : Nat} {d : DotDims (⟨2, ![100000, K]⟩ : Shape) (⟨2, ![K, 128]⟩ : Shape) (⟨2, ![100000, 128]⟩ : Shape)}
    (hd : LibDot.Plain d) (a : FVec Ideal (⟨2, ![100000, K]⟩ : Shape) .f32) (w : FVec Ideal (⟨2, ![K, 128]⟩ : Shape) .f32)
    (b : FVec Ideal S128 .f32) (r : Fin 100000) (j : Fin 128) :
    addf (Host.dotGeneral d none a w) (Cert.RefStages.bias b) (ix2 r j)
      = dense (fun k => a (ix2 r k)) (fun k j => w (ix2 k j)) (fun j => b (ix1 j)) j := by
  rw [addf_apply, bias_apply]
  unfold dense
  exact congrArg (· + b (ix1 j)) (LibDot.dotGeneral_apply hd none .single a w r j)

theorem nfeats_apply (feats : FVec Ideal S100000x64 .f32) (W1 : FVec Ideal S64x128 .f32) (b1 : FVec Ideal S128 .f32)
    (W2 : FVec Ideal S128x128 .f32) (b2 : FVec Ideal S128 .f32) (r : Fin 100000) (j : Fin 128) :
    Cert.RefStages.nfeats feats W1 b1 W2 b2 (ix2 r j)
      = nfRow (fun k => feats (ix2 r k)) (fun k j => W1 (ix2 k j)) (fun j => b1 (ix1 j))
          (fun k j => W2 (ix2 k j)) (fun j => b2 (ix1 j)) j := by
  unfold Cert.RefStages.nfeats nfRow
  refine (elu_apply _ _).trans (congrArg elu ?_)
  refine (lin_apply plain128 _ W2 b2 r j).trans ?_
  unfold dense
  refine congrArg (· + b2 (ix1 j)) (Finset.sum_congr rfl fun k _ => congrArg (· * W2 (ix2 k j)) ?_)
  beta_reduce
  refine (elu_apply _ _).trans (congrArg elu ?_)
  exact lin_apply plain64 feats W1 b1 r k

theorem xlin_apply (nf : FVec Ideal S100000x128 .f32) (feats : FVec Ideal S100000x64 .f32) (Wgc : FVec Ideal S192x128 .f32)
    (r : Fin 100000) (j : Fin 128) :
    Cert.RefStages.xlin nf feats Wgc (ix2 r j)
      = xlRow (fun k => nf (ix2 r k)) (fun k => feats (ix2 r k)) (fun k j => Wgc (ix2 k j)) j := by
  unfold Cert.RefStages.xlin xlRow
  refine (LibDot.dotGeneral_apply plain192 none .single _ Wgc r j).trans ?_
  refine Finset.sum_congr rfl fun k _ => congrArg (· * Wgc (ix2 k j)) ?_
  exact concat_cols (A := 128) (B := 64) rfl nf feats _ r k

theorem out_apply (nf ag : FVec Ideal S100000x128 .f32) (bgc : FVec Ideal S128 .f32) (Wc : FVec Ideal S256x128 .f32)
    (bc : FVec Ideal S128 .f32) (r : Fin 100000) (j : Fin 128) :
    Cert.RefStages.out nf ag bgc Wc bc (ix2 r j)
      = outRow (fun k => nf (ix2 r k)) (fun k => ag (ix2 r k)) (fun j => bgc (ix1 j)) (fun k j => Wc (ix2 k j))
          (fun j => bc (ix1 j)) j := by
  unfold Cert.RefStages.out outRow
  refine (elu_apply _ _).trans (congrArg elu ?_)
  refine (lin_apply plain256 _ Wc bc r j).trans ?_
  unfold dense
  refine congrArg (· + bc (ix1 j)) (Finset.sum_congr rfl fun k _ => congrArg (· * Wc (ix2 k j)) ?_)
  beta_reduce
  refine (concat_cols (A := 128) (B := 128) rfl nf _ _ r k).trans ?_
  refine congrArg (fun g => cat (A := 128) (B := 128) rfl (fun j => nf (ix2 r j)) g k) (funext fun j' => ?_)
  rw [addf_apply, bias_apply]

end Cert.RefIndex

end
-- ==== Proof.Bridge.lean ====
/-
  The two sides meet. The kernel program's result array is what its second pipeline leaves; read back through the
  row-wise closed forms of the three written arrays (KBlocks.lean) and the entry contents of the two calls
  (KernelPeel.lean), it is, entry by entry, the layer's row functions of the LAUNCH arrays — and so is the reference's
  composition of stages (RefIndex.lean). The host aggregation between the calls is the same function on both sides, applied
  to arrays shown equal; it is never opened. No finiteness is used: the one law joining the two spellings of the
  activation, `1 · (e^x - 1) = e^x - 1`, holds on every extended real.
-/
import proofs.«118589_j71545565216996_1_alg».proof.Proof.KernelPeel
import proofs.«118589_j71545565216996_1_alg».proof.Proof.KBlocks
import proofs.«118589_j71545565216996_1_alg».proof.Proof.KStages
import proofs.«118589_j71545565216996_1_alg».proof.Proof.RefStages
import proofs.«118589_j71545565216996_1_alg».proof.Proof.RefIndex
import proofs.«118589_j71545565216996_1_alg».proof.Proof.Spec
import Idealize.ShloMosaic.Lib.ValueIdx
import Idealize.ShloMosaic.Lib.Pipeline.Value
import Idealize.ShloMosaic.PureOps.Ideal

set_option maxRecDepth 16384

noncomputable section

namespace Cert.Bridge

open Idealize.ShloMosaic Idealize.ShloMosaic.TcCoe Idealize.ShloMosaic.ValueIdx Idealize.SL.Sem
open Cert.KernelIdeal Cert.KernelIdeal.Gen

/-! ## Small facts -/

/-- A `[128]` vector reshaped to `[1, 128]`, at row 0 and column `j`, is the vector at `j`. -/
theorem reshape_row (b : FVec Ideal S128 .f32) (h : S128.ShapeCasts S1x128) (j : Fin 128) :
    shapeCast S1x128 b h (ix2 (0 : Fin 1) j : S1x128.Idx) = b (ix1 j : S128.Idx) :=
  shapeCast_apply b h _ _ (by rw [Shape.rowMajor_val_one, Shape.rowMajor_val_two]; simp)

/-- The host aggregation is ONE function: the two programs print it with the same operations over dimension records
    that are the same literals. -/
theorem agg_eq (xl : FVec Ideal S100000x128 .f32) (e : IVec S2x1600000 32) :
    Cert.KStages.agg (F := Ideal) xl e = Cert.RefStages.agg (F := Ideal) xl e := rfl

variable (m : (ℓ : Loc nD τ sig) → Buf (Elt Ideal) ℓ) (ρ : Dev nD → PrngReg)

/-! ## The first call's two result arrays are the reference's stages of the launch arrays -/

/-- After the first call, its first result array is the reference's network on the launch arrays. -/
theorem nfeats_eq (c : Dev nD) :
    @Eq (FVec Ideal S100000x128 .f32) ((dat0 (V1 m ρ) c).arrAt 6 cfg0.N)
      (Cert.RefStages.nfeats (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := by
  rw [Cert.KBlocks.final0_6]
  funext i
  obtain ⟨r, j, rfl⟩ : ∃ (r : Fin 100000) (j : Fin 128), i = ix2 r j := ⟨i 0, i 1, eq_ix2 i⟩
  rw [Cert.RefIndex.nfeats_apply]
  unfold Cert.KBlocks.nfAt
  rw [Cert.KernelValue.V1_feats, Cert.KernelValue.V1_W1, Cert.KernelValue.V1_b1, Cert.KernelValue.V1_W2, Cert.KernelValue.V1_b2]
  congr 1
  all_goals first | rfl | (funext j'; exact reshape_row _ _ j')

/-- After the first call, its second result array is the reference's linear transform. -/
theorem xlin_eq (c : Dev nD) :
    @Eq (FVec Ideal S100000x128 .f32) ((dat0 (V1 m ρ) c).arrAt 7 cfg0.N)
      (Cert.RefStages.xlin (F := Ideal)
          (Cert.RefStages.nfeats (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg0)) (m ((c.tc : Thread nD τ).loc main_arg7))) := by
  rw [Cert.KBlocks.final0_7]
  funext i
  obtain ⟨r, j, rfl⟩ : ∃ (r : Fin 100000) (j : Fin 128), i = ix2 r j := ⟨i 0, i 1, eq_ix2 i⟩
  rw [Cert.RefIndex.xlin_apply]
  have hnf : Cert.KBlocks.nfAt (V1 m ρ) c r = fun k =>
      Cert.RefStages.nfeats (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (ix2 r k) := by
    funext k
    have := congrFun (nfeats_eq m ρ c) (ix2 r k)
    rw [Cert.KBlocks.final0_6] at this
    exact this
  show Cert.Spec.xlRow (Cert.KBlocks.nfAt (V1 m ρ) c r) _ _ j = _
  rw [hnf, Cert.KernelValue.V1_feats, Cert.KernelValue.V1_Wgc]
  rfl

/-! ## The kernel program's result array is the reference's composition of the launch arrays -/

theorem kernel_result (c : Dev nD) :
    @Eq (FVec Ideal S100000x128 .f32) ((dat1 (V5 m ρ) c).arrAt 5 cfg1.N)
      (Cert.RefStages.result (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  rw [Cert.KBlocks.final1_5]
  funext i
  obtain ⟨r, j, rfl⟩ : ∃ (r : Fin 100000) (j : Fin 128), i = ix2 r j := ⟨i 0, i 1, eq_ix2 i⟩
  unfold Cert.RefStages.result
  rw [Cert.RefIndex.out_apply]
  rw [Cert.KernelValue.V5_nfeats, Cert.KernelValue.V5_agg, Cert.KernelValue.V5_bgc, Cert.KernelValue.V5_Wc, Cert.KernelValue.V5_bc]
  rw [nfeats_eq, xlin_eq, agg_eq]
  congr 1
  all_goals first | rfl | (funext j'; exact reshape_row _ _ j')

end Cert.Bridge

end
-- ==== Proof.lean ====
/-
  The certificate of the graph layer: a two-layer network on the node features, a graph convolution (linear transform,
  symmetric degree normalisation, scatter-add over the edges and the self loops) on `[nfeats | feats]`, and a combining
  layer on `[nfeats | gc_feats]`, each followed by ELU.

  The kernel program computes the dense stages in two row-tiled pallas_calls (twenty tiles of 5000 rows) with the
  aggregation on the host between them; the reference computes everything on whole arrays. At the ideal instance the
  format changes are the identity and every stage is row-local, so both results are, entry by entry, the same row
  functions of the argument arrays (Proof/Bridge.lean); the activation is spelt `where (x > 0, x, e^x - 1)` in the kernel
  and `where (x > 0, x, 1 · expm1 (where (x > 0, 0, x)))` in the reference, which agree on every extended real
  (Proof/Spec.lean). The frames of the two kernel programs are the generated certificates; the reference's is its run
  (Proof/RefRun.lean) with the result dropped; the idealization rewrote nothing, so `preserves` is trivial.
-/
import proofs.«118589_j71545565216996_1_alg».proof.Defs
import proofs.«118589_j71545565216996_1_alg».proof.Proof.Gen.Kernel
import proofs.«118589_j71545565216996_1_alg».proof.Proof.Gen.Kernel.Frame
import proofs.«118589_j71545565216996_1_alg».proof.Proof.Gen.KernelIdeal
import proofs.«118589_j71545565216996_1_alg».proof.Proof.Gen.KernelIdeal.Frame
import proofs.«118589_j71545565216996_1_alg».proof.Proof.Gen.ReferenceIdeal
import proofs.«118589_j71545565216996_1_alg».proof.Proof.Gen.Pre_finite_inputs
import proofs.«118589_j71545565216996_1_alg».proof.Proof.KernelPeel
import proofs.«118589_j71545565216996_1_alg».proof.Proof.RefValue
import proofs.«118589_j71545565216996_1_alg».proof.Proof.Bridge

noncomputable section

namespace Cert.Proof

open Idealize.ShloMosaic Idealize.ShloMosaic.TcCoe Idealize.SL.Sem

/-- The word-level kernel program runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.RefValue.run (F := Ideal) m ρ)

/-- From memories that agree on the arguments both programs end with the result array at the reference's composition
    of stages of the kernel side's launch arrays, and with the two integer arguments they return unchanged. -/
theorem algebraic : Cert.algebraic_KernelIdeal_ReferenceIdeal := by
  intro m ρ m' ρ' _ hagree
  refine ⟨fun c => Cert.RefStages.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => (m ((c.tc : Thread Cert.KernelIdeal.nD Cert.KernelIdeal.τ).loc Cert.KernelIdeal.main_arg1)), fun c => (m ((c.tc : Thread Cert.KernelIdeal.nD Cert.KernelIdeal.τ).loc Cert.KernelIdeal.main_arg2)), ?_, ?_⟩
  · refine (θ_run Cert.KernelIdeal.defs _ _).mono (fun r h c => ?_) (Cert.KernelValue.run_named m ρ)
    obtain ⟨hres, h0, h1, h2, h3, h4, h5, h6, h7, h8, h9, h10⟩ := h c
    exact ⟨hres.trans (Cert.Bridge.kernel_result m ρ c), h1, h2, h0, h1, h2, h3, h4, h5, h6, h7, h8, h9, h10⟩
  · refine (θ_run Cert.ReferenceIdeal.defs _ _).mono (fun r h c => ?_) (Cert.RefValue.run (F := Ideal) m' ρ')
    obtain ⟨hres, h0, h1, h2, h3, h4, h5, h6, h7, h8, h9, h10⟩ := h c
    obtain ⟨a0, a1, a2, a3, a4, a5, a6, a7, a8, a9, a10⟩ := hagree c
    refine ⟨hres.trans ?_, h1.trans a1, h2.trans a2, h0, h1, h2, h3, h4, h5, h6, h7, h8, h9, h10⟩
    rw [a0, a1, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
